-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x3 : Shape := ⟨2, ![10000, 3]⟩
abbrev S2x160000 : Shape := ⟨2, ![2, 160000]⟩
abbrev S160000x64 : Shape := ⟨2, ![160000, 64]⟩
abbrev S160000x16 : Shape := ⟨2, ![160000, 16]⟩
abbrev S80x512 : Shape := ⟨2, ![80, 512]⟩
abbrev S512 : Shape := ⟨1, ![512]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S160000x64 : S_.BroadcastsInDim S160000x64 (![] : Fin 0 → Fin S160000x64.rank)
  reducesTo_S160000x64_S_d0_1 : S160000x64.ReducesTo [0, 1] S_
  bcast_S_S160000x16 : S_.BroadcastsInDim S160000x16 (![] : Fin 0 → Fin S160000x16.rank)
  reducesTo_S160000x16_S_d0_1 : S160000x16.ReducesTo [0, 1] S_
  bcast_S_S80x512 : S_.BroadcastsInDim S80x512 (![] : Fin 0 → Fin S80x512.rank)
  reducesTo_S80x512_S_d0_1 : S80x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_arg9 : FVec F S512x512 .f32) (main_arg10 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg5 : FVec F S80x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S160000x16 1) : IVec S_ 1 :=
  let main_c_5 : IVec S_ 1 := constantI S_ 1 1#1
  let main_v17 : IVec S_ 1 := (fun x v => Host.reduce IntOp.andi x v reducesTo_S160000x16_S_d0_1 h_S_) main_v16 main_c_5
  let main_v18 : IVec S_ 1 := andi main_v13 main_v17
  let main_v19 : FVec F S80x512 .f32 := Host.absf main_arg5
  let main_cst_6 : FVec F S_ .f32 := constant S_ .f32 0x7F800000#32
  let main_v20 : FVec F S80x512 .f32 := broadcastInDim S80x512 ![] bcast_S_S80x512 main_cst_6
  let main_v21 : IVec S80x512 1 := cmpf .olt main_v19 main_v20
  let main_c_7 : IVec S_ 1 := constantI S_ 1 1#1
  let main_v22 : IVec S_ 1 := (fun x v => Host.reduce IntOp.andi x v reducesTo_S80x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x512 .f32) (main_arg1 : FVec F S10000x3 .f32) (main_arg2 : IVec S2x160000 32) (main_arg3 : FVec F S160000x64 .f32) (main_arg4 : FVec F S160000x16 .f32) (main_arg5 : FVec F S80x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S160000x16 .f32 := Host.absf main_arg4
  let main_cst_4 : FVec F S_ .f32 := constant S_ .f32 0x7F800000#32
  let main_v15 : FVec F S160000x16 .f32 := broadcastInDim S160000x16 ![] bcast_S_S160000x16 main_cst_4
  let main_v16 : IVec S160000x16 1 := cmpf .olt main_v14 main_v15
  fn_part1 (F := F) main_arg5 main_arg6 main_arg7 main_arg8 main_arg9 main_arg10 main_v13 main_v16
-- ==== Kernel.lean ====
abbrev S10000x512 : Shape := ⟨2, ![10000, 512]⟩
abbrev S10000x3 : Shape := ⟨2, ![10000, 3]⟩
abbrev S2x160000 : Shape := ⟨2, ![2, 160000]⟩
abbrev S160000x64 : Shape := ⟨2, ![160000, 64]⟩
abbrev S160000x16 : Shape := ⟨2, ![160000, 16]⟩
abbrev S80x512 : Shape := ⟨2, ![80, 512]⟩
abbrev S512 : Shape := ⟨1, ![512]⟩
abbrev S512x512 : Shape := ⟨2, ![512, 512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x81 : Shape := ⟨2, ![160000, 81]⟩
abbrev S160000x128 : Shape := ⟨2, ![160000, 128]⟩
abbrev S1x512 : Shape := ⟨2, ![1, 512]⟩
abbrev S47x512 : Shape := ⟨2, ![47, 512]⟩
abbrev S128x512 : Shape := ⟨2, ![128, 512]⟩
abbrev S1280x128 : Shape := ⟨2, ![1280, 128]⟩
abbrev S1x1280 : Shape := ⟨2, ![1, 1280]⟩
abbrev S1000x512 : Shape := ⟨2, ![1000, 512]⟩
abbrev S1000x128 : Shape := ⟨2, ![1000, 128]⟩
abbrev S1000x1280 : Shape := ⟨2, ![1000, 1280]⟩

abbrev nBuf : Space → Nat
  | .hbm => 28
  | .vmem => 14
  | .smem => 0
  | _ => 0

abbrev bufTy : (tb : Table) → Fin (tcTables nBuf tb) → BufTy
  | .hbm, ⟨0, _⟩ => ⟨S10000x512, .f32⟩
  | .hbm, ⟨1, _⟩ => ⟨S10000x3, .f32⟩
  | .hbm, ⟨2, _⟩ => ⟨S2x160000, .i32⟩
  | .hbm, ⟨3, _⟩ => ⟨S160000x64, .f32⟩
  | .hbm, ⟨4, _⟩ => ⟨S160000x16, .f32⟩
  | .hbm, ⟨5, _⟩ => ⟨S80x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1x160000, .i32⟩
  | .hbm, ⟨12, _⟩ => ⟨S160000, .i32⟩
  | .hbm, ⟨13, _⟩ => ⟨S1x160000, .i32⟩
  | .hbm, ⟨14, _⟩ => ⟨S_, .f32⟩
  | .hbm, ⟨15, _⟩ => ⟨S160000x1, .f32⟩
  | .hbm, ⟨16, _⟩ => ⟨S160000x81, .f32⟩
  | .hbm, ⟨17, _⟩ => ⟨S_, .i32⟩
  | .hbm, ⟨18, _⟩ => ⟨S_, .f32⟩
  | .hbm, ⟨19, _⟩ => ⟨S160000x128, .f32⟩
  | .hbm, ⟨20, _⟩ => ⟨S160000x128, .bf16⟩
  | .hbm, ⟨21, _⟩ => ⟨S1x512, .f32⟩
  | .hbm, ⟨22, _⟩ => ⟨S_, .f32⟩
  | .hbm, ⟨23, _⟩ => ⟨S47x512, .f32⟩
  | .hbm, ⟨24, _⟩ => ⟨S128x512, .f32⟩
  | .hbm, ⟨25, _⟩ => ⟨S1x512, .f32⟩
  | .hbm, ⟨26, _⟩ => ⟨S1x512, .f32⟩
  | .hbm, ⟨27, _⟩ => ⟨S10000x512, .f32⟩
  | .local _ .vmem, ⟨0, _⟩ => ⟨S1280x128, .bf16⟩
  | .local _ .vmem, ⟨1, _⟩ => ⟨S1280x128, .bf16⟩
  | .local _ .vmem, ⟨2, _⟩ => ⟨S1x1280, .i32⟩
  | .local _ .vmem, ⟨3, _⟩ => ⟨S1x1280, .i32⟩
  | .local _ .vmem, ⟨4, _⟩ => ⟨S128x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![10, 125], ![false, false]⟩

def k0_cond2 (i : grid0.Coords) : BitVec 1 :=
  let arg1 : BitVec 32 := BitVec.ofNat 32 (i 1).val
  let c124_i32 : BitVec 32 := 124#32
  let v22 : BitVec 1 := Scalar.cmpi .eq arg1 c124_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S2x160000_S1x160000_0_0 : S2x160000.Slices ![0, 0] S1x160000
  shapeCasts_S1x160000_S160000 : S1x160000.ShapeCasts S160000
  shapeCasts_S160000_S1x160000 : S160000.ShapeCasts S1x160000
  bcast_S_S160000x1 : S_.BroadcastsInDim S160000x1 (![] : Fin 0 → Fin S160000x1.rank)
  concatenates_S160000x64_S160000x16_S160000x1_S160000x81_d1 : Shape.Concatenates [S160000x64, S160000x16, S160000x1] S160000x81 1
  pads_S160000x81_S160000x128_000_0470 : S160000x81.Pads (![0, 0] : Fin 2 → Nat) ![0, 47] ![0, 0] S160000x128
  h_S_ : 0 < S_.numel
  bitsLt_bf16_f32 : FTy.bits .bf16 < FTy.bits .f32
  shapeCasts_S512_S1x512 : S512.ShapeCasts S1x512
  bcast_S_S47x512 : S_.BroadcastsInDim S47x512 (![] : Fin 0 → Fin S47x512.rank)
  concatenates_S80x512_S1x512_S47x512_S128x512_d0 : Shape.Concatenates [S80x512, S1x512, S47x512] S128x512 0
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  iota_S1000x1280_d0_w32 : S1000x1280.Iotas .tc 32 [0]
  broadcasts_S1x1280_S1000x1280 : S1x1280.Broadcasts S1000x1280
  natLt_1_32 : 1 < 32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  dot_S1000x1280_S1280x128_S1000x128_1_0_0_1_n_n_wf : DotDims.WF S1000x1280 S1280x128 S1000x128 [1] [0] [0] [1] [] []
  dot_S1000x128_S128x512_S1000x512_1_0_0_1_n_n_wf : DotDims.WF S1000x128 S128x512 S1000x512 [1] [0] [0] [1] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S160000x128.size a
  hwx0_0 : ∀ i : grid0.Coords, EltTy.bits .bf16 = 32 ∨ (Rect.block (s := S160000x128) S1280x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x160000.size a
  hwx0_1 : ∀ i : grid0.Coords, EltTy.bits .i32 = 32 ∨ (Rect.block (s := S1x160000) S1x1280.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x512.size a ≤ S10000x512.size a
  hwx0_7 : ∀ i : grid0.Coords, EltTy.bits .f32 = 32 ∨ (Rect.block (s := S10000x512) S1000x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x512.size a ≤ S10000x512.size a
  hwx0_8 : ∀ i : grid0.Coords, EltTy.bits .f32 = 32 ∨ (Rect.block (s := S10000x512) S1000x512.size (cc0_transform_8 i) (hinb0_8 i)).WholeWords (EltTy.packing .f32)

variable [Facts₀]

def dot_S1000x1280_S1280x128_S1000x128_1_0_0_1_n_n : DotDims S1000x1280 S1280x128 S1000x128 where
  lhsContracting := [1]
  rhsContracting := [0]
  lhsNonContracting := [0]
  rhsNonContracting := [1]
  lhsBatch := []
  rhsBatch := []
  wf := dot_S1000x1280_S1280x128_S1000x128_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v6) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S1000x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1000x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S10000x512 : Shape := ⟨2, ![10000, 512]⟩
abbrev S10000x3 : Shape := ⟨2, ![10000, 3]⟩
abbrev S2x160000 : Shape := ⟨2, ![2, 160000]⟩
abbrev S160000x64 : Shape := ⟨2, ![160000, 64]⟩
abbrev S160000x16 : Shape := ⟨2, ![160000, 16]⟩
abbrev S80x512 : Shape := ⟨2, ![80, 512]⟩
abbrev S512 : Shape := ⟨1, ![512]⟩
abbrev S512x512 : Shape := ⟨2, ![512, 512]⟩
abbrev S1x160000 : Shape := ⟨2, ![1, 160000]⟩
abbrev S160000 : Shape := ⟨1, ![160000]⟩
abbrev S160000x80 : Shape := ⟨2, ![160000, 80]⟩
abbrev S160000x512 : Shape := ⟨2, ![160000, 512]⟩
abbrev S1x512 : Shape := ⟨2, ![1, 512]⟩
abbrev S_ : Shape := ⟨0, ![]⟩
abbrev S160000x1 : Shape := ⟨2, ![160000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x3, .f32⟩
  | .hbm, ⟨2, _⟩ => ⟨S2x160000, .i32⟩
  | .hbm, ⟨3, _⟩ => ⟨S160000x64, .f32⟩
  | .hbm, ⟨4, _⟩ => ⟨S160000x16, .f32⟩
  | .hbm, ⟨5, _⟩ => ⟨S80x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1x160000, .i32⟩
  | .hbm, ⟨12, _⟩ => ⟨S160000, .i32⟩
  | .hbm, ⟨13, _⟩ => ⟨S160000x80, .f32⟩
  | .hbm, ⟨14, _⟩ => ⟨S160000x512, .f32⟩
  | .hbm, ⟨15, _⟩ => ⟨S1x512, .f32⟩
  | .hbm, ⟨16, _⟩ => ⟨S160000x512, .f32⟩
  | .hbm, ⟨17, _⟩ => ⟨S160000x512, .f32⟩
  | .hbm, ⟨18, _⟩ => ⟨S_, .f32⟩
  | .hbm, ⟨19, _⟩ => ⟨S10000x512, .f32⟩
  | .hbm, ⟨20, _⟩ => ⟨S160000x1, .i32⟩
  | .hbm, ⟨21, _⟩ => ⟨S10000x512, .f32⟩
  | .hbm, ⟨22, _⟩ => ⟨S10000x512, .f32⟩
  | .hbm, ⟨23, _⟩ => ⟨S1x512, .f32⟩
  | .hbm, ⟨24, _⟩ => ⟨S10000x512, .f32⟩
  | .hbm, ⟨25, _⟩ => ⟨S10000x512, .f32⟩
  | .hbm, ⟨26, _⟩ => ⟨S_, .f32⟩
  | .hbm, ⟨27, _⟩ => ⟨S10000x512, .f32⟩
  | .hbm, ⟨28, _⟩ => ⟨S10000x512, .f32⟩
  | .hbm, ⟨29, _⟩ => ⟨S10000x512, .f32⟩
  | .hbm, ⟨30, _⟩ => ⟨S1x512, .f32⟩
  | .hbm, ⟨31, _⟩ => ⟨S10000x512, .f32⟩
  | .hbm, ⟨32, _⟩ => ⟨S10000x512, .f32⟩
  | .hbm, ⟨33, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000x64_S160000x16_S160000x80_d1 : Shape.Concatenates [S160000x64, S160000x16] S160000x80 1
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  bcast_S_S10000x512 : S_.BroadcastsInDim S10000x512 (![] : Fin 0 → Fin S10000x512.rank)
  bcast_S160000_S160000x1_0 : S160000.BroadcastsInDim S160000x1 (![0] : Fin 1 → Fin S160000x1.rank)
  bcast_S1x512_S10000x512_0_1 : S1x512.BroadcastsInDim S10000x512 (![0, 1] : Fin 2 → Fin S10000x512.rank)
  dot_S160000x80_S80x512_S160000x512_1_0_0_1_n_n_wf : DotDims.WF S160000x80 S80x512 S160000x512 [1] [0] [0] [1] [] []
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def dot_S160000x80_S80x512_S160000x512_1_0_0_1_n_n : DotDims S160000x80 S80x512 S160000x512 where
  lhsContracting := [1]
  rhsContracting := [0]
  lhsNonContracting := [0]
  rhsNonContracting := [1]
  lhsBatch := []
  rhsBatch := []
  wf := dot_S160000x80_S80x512_S160000x512_1_0_0_1_n_n_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.BitsFrameKit.lean ====
/-
  What the frame of the one pallas_call rests on: @main up to the region, the arrays as the region finds them, each window's block
  at a grid point, the two branch conditions of the body in closed form over the grid (the first edge tile resets the
  accumulator, the last one runs the node MLP and stores the output block), where the output window is idle, and the
  frame claim's post read off a frame run.
-/
import proofs.«419056_j37220186587493_2_alg».proof.Proof.Gen.Kernel.Launch
import proofs.«419056_j37220186587493_2_alg».proof.Proof.Gen.Kernel.Skeleton
import proofs.«419056_j37220186587493_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations
    (the row of destination nodes sliced out, the edge features packed to 128 lanes, the weights stacked). -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- The frame claim from a frame run: each argument array is either a staged input (the node features and the two MLP
    weight matrices), which the run leaves at its entry contents, or an array no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 7).trans (((dats 0 c).arrAt_in 7 rfl _).trans ((hA c 7).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 3).trans (((dats 0 c).arrAt_in 3 rfl _).trans ((hA c 3).trans (V_main_arg7 m c))),
      ((h c).2 main_arg8 (Pipeline.mem_restRefs_of main_arg8 (by decide) (by decide))).trans (V_main_arg8 m c),
      ((h c).1 5).trans (((dats 0 c).arrAt_in 5 rfl _).trans ((hA c 5).trans (V_main_arg9 m c))),
      ((h c).2 main_arg10 (Pipeline.mem_restRefs_of main_arg10 (by decide) (by decide))).trans (V_main_arg10 m c)⟩) h

/-! ## The body's branch conditions -/

/-- "This is the first edge tile" (the accumulator is reset), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

/-- "This is the last edge tile" (the node MLP runs and the output block is stored). -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The staging and scratch memrefs -/

/-- One staging buffer of the output window, through which its contents are stated. -/
abbrev VO0_8 : View sig .tc .vmem S1000x512 .f32 := (Memref.whole cc0_stg8_0 : Memref sig .tc .vmem S1000x512 .f32).view
abbrev ms0_0 (t : Fin cfg0.N) : Memref sig .tc .vmem S1280x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1000x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1000x512 .f32 := win0_8.stage (cfg0.slots t 8)
abbrev hs0_8 (t : Fin cfg0.N) : (ms0_8 t).IsWhole := hstage0_8 ((cfg0.slots t 8).cast nbuf0_8)
/-- The accumulator: a whole scoped buffer of the kernel's own, passed beside the windows. -/
abbrev scM0_0 : Memref sig .tc .vmem S1000x128 .f32 := Memref.whole cc0_scratch0
abbrev VS0_0 : View sig .tc .vmem S1000x128 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.BitsRunA.lean ====
/-
  The body run at a first edge tile (the accumulator is reset, then the tile's masked sum is added; nothing is stored into
  the output block): on whole staging memrefs holding the inputs' blocks, the output's buffer handed back untouched, the
  accumulator at anything, it runs to the continuation with the accumulator's stores recorded as pieces.
-/
import proofs.«419056_j37220186587493_2_alg».proof.Proof.BitsFrameKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) :
    Σ' (L8 : List (View.Piece (Elt F) S1000x512 .f32)), { LS0 : List (View.Piece (Elt F) S1000x128 .f32) //
      ∀ (xi8 : Vec F S1000x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.BitsRunB.lean ====
/-
  The body run at an edge tile that is neither first nor last: the tile's masked sum is added to the accumulator the
  point before left; the output's buffer is handed back untouched.
-/
import proofs.«419056_j37220186587493_2_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) :
    Σ' (L8 : List (View.Piece (Elt F) S1000x512 .f32)), { LS0 : List (View.Piece (Elt F) S1000x128 .f32) //
      ∀ (xi8 : Vec F S1000x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.BitsRunC.lean ====
/-
  The body run at a last edge tile: the tile's masked sum is added to the accumulator, the finished accumulator is read
  back, multiplied by the stacked edge weights, sent through the two-layer node MLP, added to the node features, and the
  result stored over the whole output block.
-/
import proofs.«419056_j37220186587493_2_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) :
    Σ' (L8 : List (View.Piece (Elt F) S1000x512 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Hand

end
-- ==== Proof.BitsFrame.lean ====
/-
  The frame of the one pallas_call, with every output named.  Per control case the pieces the body's stores leave in the
  output block and in the accumulator; what both hold after each grid point, by recursion on the point (the accumulator
  is carried from one edge tile to the next, reset at a node tile's first edge tile; the output block is stored at the
  node tile's last edge tile and idle elsewhere); the pipeline's proof data; the body obligation at a generic point; the
  run of @main and the frame claim.
-/
import proofs.«419056_j37220186587493_2_alg».proof.Proof.BitsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Away from the last edge tile nothing is stored into the output block: a placeholder nothing consults (the window is
    neither written back there nor read at the next point). -/
def out0_A_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) : Vec F S1000x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).1)

/-- The case's stores into the accumulator cover it. -/
theorem scover0_A_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (y : S1000x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1 S1000x128.size (by sl_kernel_rfl) y

/-- What the case leaves in the accumulator: its stores read back. -/
def sout0_A_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) : Vec F S1000x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1)

/-- Away from the last edge tile nothing is stored into the output block: a placeholder nothing consults (the window is
    neither written back there nor read at the next point). -/
def out0_B_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The case's stores into the accumulator cover it. -/
theorem scover0_B_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) (y : S1000x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S1000x128.size (by sl_kernel_rfl) y

/-- What the case leaves in the accumulator: its stores read back. -/
def sout0_B_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- At a last edge tile the one store into the output block covers it. -/
theorem cover0_C_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) (y : S1000x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1 S1000x512.size (by sl_kernel_rfl) y

/-- What a last edge tile leaves in the output's staging buffer: its store read back. -/
def out0_C_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x512 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The case's stores into the accumulator cover it. -/
theorem scover0_C_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) (y : S1000x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S1000x128.size (by sl_kernel_rfl) y

/-- What the case leaves in the accumulator: its stores read back. -/
def sout0_C_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output block and the accumulator hold after each point -/

/-- After the body at position `n`: the output's staging buffer and the accumulator, by the case the position is in; a
    case that reads the accumulator takes what the position before left. -/
def outsAt0 (c : Dev nD) : (n : ℕ) → n < cfg0.N → Vec F S1000x512 .f32 × Vec F S1000x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 125 = 0 then
      if h1 : (n + 1) % 125 = 124 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 125 = 124 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

theorem outsAt0_A (c : Dev nD) (t : Fin cfg0.N) (h0 : t.val % 125 = 0) (h1 : ¬t.val % 125 = 124) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 125 = 0) (h1 : ¬t.val % 125 = 124) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 125 = 0) (h1 : t.val % 125 = 124) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards it holds
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the closed forms say which case the point is in, that case's run applies, and the invariant
    hands the accumulator over at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 1250 := lt_of_lt_of_eq t.isLt (show cfg0.N = 1250 from N_0)
  by_cases h0 : t.val % 125 = 0
  · by_cases h1 : t.val % 125 = 124
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 125 = 124
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold out0_C_8 sout0_C_0; (try dsimp only)
      by_cases hz : t.val = 0
      · exfalso; have hN : t.val < 1250 := lt_of_lt_of_eq t.isLt (show cfg0.N = 1250 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold sout0_B_0; (try dsimp only)
      by_cases hz : t.val = 0
      · exfalso; have hN : t.val < 1250 := lt_of_lt_of_eq t.isLt (show cfg0.N = 1250 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1250 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any `F`: @main runs to the end and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.IdealFrameKit.lean ====
/-
  What the frame of the one pallas_call rests on: @main up to the region, the arrays as the region finds them, each window's block
  at a grid point, the two branch conditions of the body in closed form over the grid (the first edge tile resets the
  accumulator, the last one runs the node MLP and stores the output block), where the output window is idle, and the
  frame claim's post read off a frame run.
-/
import proofs.«419056_j37220186587493_2_alg».proof.Proof.Gen.KernelIdeal.Launch
import proofs.«419056_j37220186587493_2_alg».proof.Proof.Gen.KernelIdeal.Skeleton
import proofs.«419056_j37220186587493_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations
    (the row of destination nodes sliced out, the edge features packed to 128 lanes, the weights stacked). -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- The frame claim from a frame run: each argument array is either a staged input (the node features and the two MLP
    weight matrices), which the run leaves at its entry contents, or an array no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 7).trans (((dats 0 c).arrAt_in 7 rfl _).trans ((hA c 7).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 3).trans (((dats 0 c).arrAt_in 3 rfl _).trans ((hA c 3).trans (V_main_arg7 m c))),
      ((h c).2 main_arg8 (Pipeline.mem_restRefs_of main_arg8 (by decide) (by decide))).trans (V_main_arg8 m c),
      ((h c).1 5).trans (((dats 0 c).arrAt_in 5 rfl _).trans ((hA c 5).trans (V_main_arg9 m c))),
      ((h c).2 main_arg10 (Pipeline.mem_restRefs_of main_arg10 (by decide) (by decide))).trans (V_main_arg10 m c)⟩) h

/-! ## The body's branch conditions -/

/-- "This is the first edge tile" (the accumulator is reset), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

/-- "This is the last edge tile" (the node MLP runs and the output block is stored). -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The staging and scratch memrefs -/

/-- One staging buffer of the output window, through which its contents are stated. -/
abbrev VO0_8 : View sig .tc .vmem S1000x512 .f32 := (Memref.whole cc0_stg8_0 : Memref sig .tc .vmem S1000x512 .f32).view
abbrev ms0_0 (t : Fin cfg0.N) : Memref sig .tc .vmem S1280x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1000x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1000x512 .f32 := win0_8.stage (cfg0.slots t 8)
abbrev hs0_8 (t : Fin cfg0.N) : (ms0_8 t).IsWhole := hstage0_8 ((cfg0.slots t 8).cast nbuf0_8)
/-- The accumulator: a whole scoped buffer of the kernel's own, passed beside the windows. -/
abbrev scM0_0 : Memref sig .tc .vmem S1000x128 .f32 := Memref.whole cc0_scratch0
abbrev VS0_0 : View sig .tc .vmem S1000x128 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.IdealRunA.lean ====
/-
  The body run at a first edge tile (the accumulator is reset, then the tile's masked sum is added; nothing is stored into
  the output block): on whole staging memrefs holding the inputs' blocks, the output's buffer handed back untouched, the
  accumulator at anything, it runs to the continuation with the accumulator's stores recorded as pieces.
-/
import proofs.«419056_j37220186587493_2_alg».proof.Proof.IdealFrameKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) :
    Σ' (L8 : List (View.Piece (Elt F) S1000x512 .f32)), { LS0 : List (View.Piece (Elt F) S1000x128 .f32) //
      ∀ (xi8 : Vec F S1000x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.IdealRunB.lean ====
/-
  The body run at an edge tile that is neither first nor last: the tile's masked sum is added to the accumulator the
  point before left; the output's buffer is handed back untouched.
-/
import proofs.«419056_j37220186587493_2_alg».proof.Proof.IdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) :
    Σ' (L8 : List (View.Piece (Elt F) S1000x512 .f32)), { LS0 : List (View.Piece (Elt F) S1000x128 .f32) //
      ∀ (xi8 : Vec F S1000x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.IdealRunC.lean ====
/-
  The body run at a last edge tile: the tile's masked sum is added to the accumulator, the finished accumulator is read
  back, multiplied by the stacked edge weights, sent through the two-layer node MLP, added to the node features, and the
  result stored over the whole output block.
-/
import proofs.«419056_j37220186587493_2_alg».proof.Proof.IdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) :
    Σ' (L8 : List (View.Piece (Elt F) S1000x512 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Hand

end
-- ==== Proof.IdealFrame.lean ====
/-
  The frame of the one pallas_call, with every output named.  Per control case the pieces the body's stores leave in the
  output block and in the accumulator; what both hold after each grid point, by recursion on the point (the accumulator
  is carried from one edge tile to the next, reset at a node tile's first edge tile; the output block is stored at the
  node tile's last edge tile and idle elsewhere); the pipeline's proof data; the body obligation at a generic point; the
  run of @main and the frame claim.
-/
import proofs.«419056_j37220186587493_2_alg».proof.Proof.IdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Away from the last edge tile nothing is stored into the output block: a placeholder nothing consults (the window is
    neither written back there nor read at the next point). -/
def out0_A_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) : Vec F S1000x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).1)

/-- The case's stores into the accumulator cover it. -/
theorem scover0_A_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (y : S1000x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1 S1000x128.size (by sl_kernel_rfl) y

/-- What the case leaves in the accumulator: its stores read back. -/
def sout0_A_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) : Vec F S1000x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1)

/-- Away from the last edge tile nothing is stored into the output block: a placeholder nothing consults (the window is
    neither written back there nor read at the next point). -/
def out0_B_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The case's stores into the accumulator cover it. -/
theorem scover0_B_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) (y : S1000x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S1000x128.size (by sl_kernel_rfl) y

/-- What the case leaves in the accumulator: its stores read back. -/
def sout0_B_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- At a last edge tile the one store into the output block covers it. -/
theorem cover0_C_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) (y : S1000x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1 S1000x512.size (by sl_kernel_rfl) y

/-- What a last edge tile leaves in the output's staging buffer: its store read back. -/
def out0_C_8 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x512 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- The case's stores into the accumulator cover it. -/
theorem scover0_C_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) (y : S1000x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S1000x128.size (by sl_kernel_rfl) y

/-- What the case leaves in the accumulator: its stores read back. -/
def sout0_C_0 (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) : Vec F S1000x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output block and the accumulator hold after each point -/

/-- After the body at position `n`: the output's staging buffer and the accumulator, by the case the position is in; a
    case that reads the accumulator takes what the position before left. -/
def outsAt0 (c : Dev nD) : (n : ℕ) → n < cfg0.N → Vec F S1000x512 .f32 × Vec F S1000x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 125 = 0 then
      if h1 : (n + 1) % 125 = 124 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 125 = 124 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

theorem outsAt0_A (c : Dev nD) (t : Fin cfg0.N) (h0 : t.val % 125 = 0) (h1 : ¬t.val % 125 = 124) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val % 125 = 0) (h1 : ¬t.val % 125 = 124) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 125 = 0) (h1 : t.val % 125 = 124) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards it holds
    what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the closed forms say which case the point is in, that case's run applies, and the invariant
    hands the accumulator over at what the point before left and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 1250 := lt_of_lt_of_eq t.isLt (show cfg0.N = 1250 from N_0)
  by_cases h0 : t.val % 125 = 0
  · by_cases h1 : t.val % 125 = 124
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 125 = 124
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold out0_C_8 sout0_C_0; (try dsimp only)
      by_cases hz : t.val = 0
      · exfalso; have hN : t.val < 1250 := lt_of_lt_of_eq t.isLt (show cfg0.N = 1250 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold sout0_B_0; (try dsimp only)
      by_cases hz : t.val = 0
      · exfalso; have hN : t.val < 1250 := lt_of_lt_of_eq t.isLt (show cfg0.N = 1250 from N_0); omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1250 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any `F`: @main runs to the end and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.IdealPieces.lean ====
/-
  What each control case leaves behind, as a value: the accumulator after a first edge tile is the update applied to the
  zero block (the reset is read back by the update), after any other edge tile the update applied to what the tile before
  left; at a last edge tile the output block is the epilogue of the accumulator just updated and of the weight, bias and
  node-feature blocks.  Each is the one covering store's payload, its loads reading whole buffers.
-/
import proofs.«419056_j37220186587493_2_alg».proof.Proof.IdealFrame
import Idealize.ShloMosaic.Lib.Pipeline.Value

set_option maxRecDepth 16384

noncomputable section

namespace Cert.KernelIdeal.Pieces

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A first edge tile: the reset's zero block is the earlier of the two stores and is what the update loads back, so the
    later, covering store leaves the update of the zero block. -/
theorem sout_A (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 i x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1000x128) hz, View.readCov_unit_zero (S := S1000x128) _ hz]
  simp only [View.readAt_eq_ld, harg2.read_unread, harg3.read_unread,
    View.ld_unit_zero (S := S1280x128) hz, View.ld_unit_zero (S := S1x1280) hz]

/-- An inner edge tile: the one store covers the accumulator, and its loads read the whole input blocks and what the tile
    before left. -/
theorem sout_B (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : ¬cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 i x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero (S := S1000x128) hz]
  simp only [View.readAt_eq_ld, harg2.read_unread, harg3.read_unread, harg11.read_unread,
    View.ld_unit_zero (S := S1280x128) hz, View.ld_unit_zero (S := S1x1280) hz, View.ld_unit_zero (S := S1000x128) hz]

/-- A last edge tile updates the accumulator exactly as an inner one does. -/
theorem sout_C (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 i x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero (S := S1000x128) hz]
  simp only [View.readAt_eq_ld, harg2.read_unread, harg3.read_unread, harg11.read_unread,
    View.ld_unit_zero (S := S1280x128) hz, View.ld_unit_zero (S := S1x1280) hz, View.ld_unit_zero (S := S1000x128) hz]

/-- A last edge tile: the one store into the output block covers it; the epilogue's load of the accumulator comes after the
    update's store, so it reads the update's payload. -/
theorem out_C (c : Dev nD) (i : grid0.Coords) (arg2 : Memref sig .tc .vmem S1280x128 .bf16) (harg2 : arg2.IsWhole) (arg3 : Memref sig .tc .vmem S1x1280 .i32) (harg3 : arg3.IsWhole) (arg4 : Memref sig .tc .vmem S128x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1000x512 .f32) (harg9 : arg9.IsWhole) (arg10 : Memref sig .tc .vmem S1000x512 .f32) (harg10 : arg10.IsWhole) (arg11 : Memref sig .tc .vmem S1000x128 .f32) (harg11 : arg11.IsWhole) (hc0 : ¬cond0_0 i) (hc1 : cond0_1 i)
    (x0 : Vec F S1280x128 .bf16) (x1 : Vec F S1x1280 .i32) (x2 : Vec F S128x512 .f32) (x3 : Vec F S512x512 .f32) (x4 : Vec F S1x512 .f32) (x5 : Vec F S512x512 .f32) (x6 : Vec F S1x512 .f32) (x7 : Vec F S1000x512 .f32) (xs0 : Vec F S1000x128 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 (k0_pay2 i x0 x1 xs0) x2 x3 x4 x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero (S := S1000x512) hz, View.readCov_unit_zero (S := S1000x128) _ hz]
  simp only [View.readAt_eq_ld, harg2.read_unread, harg3.read_unread, harg4.read_unread, harg5.read_unread,
    harg6.read_unread, harg7.read_unread, harg8.read_unread, harg9.read_unread, harg11.read_unread,
    View.ld_unit_zero (S := S1280x128) hz, View.ld_unit_zero (S := S1x1280) hz, View.ld_unit_zero (S := S1000x128) hz,
    View.ld_unit_zero (S := S128x512) hz, View.ld_unit_zero (S := S512x512) hz, View.ld_unit_zero (S := S1x512) hz,
    View.ld_unit_zero (S := S1000x512) hz]

end Cert.KernelIdeal.Pieces

end
-- ==== Proof.Spec.lean ====
/-
  The mathematics of the certificate, with no program in sight.  A graph layer: every edge `e` carries 80 features
  (64 radial, 16 angular) and points at a destination node `row e`; a node's aggregate is the sum, over the edges that
  point at it, of the edge's projected message `ef e · W_edge + b_edge`; the aggregate goes through a two-layer
  perceptron with a rectifier and is added to the node's own features.

  The reference computes the aggregate as written (`aggR`).  The kernel first sums the RAW features of a node's edges,
  packed to 128 lanes as `[radial | angular | 1 | 0 … 0]`, by a 0/1 mask (`accK`), and only then multiplies by the
  stacked matrix `[W_edge ; b_edge ; 0]` (`aggK`): the lane of ones counts the node's edges, so it yields
  `degree · b_edge`.  The two agree when every number involved is a real: multiplication then distributes over the
  sums (`aggK_eq_aggR`).  An edge whose `row` is no node's number is dropped on both sides.
-/
import Idealize.ShloMosaic.Lib.ValueIdx
import Idealize.ShloMosaic.PureOps.Ideal.Laws

noncomputable section

namespace Cert.Spec

open Idealize.ShloMosaic Idealize.ShloMosaic.ValueIdx

/-! ## The arrays' shapes -/

abbrev SNxD : Shape := ⟨2, ![10000, 512]⟩
abbrev S2xE : Shape := ⟨2, ![2, 160000]⟩
abbrev SExR : Shape := ⟨2, ![160000, 64]⟩
abbrev SExA : Shape := ⟨2, ![160000, 16]⟩
abbrev SKxD : Shape := ⟨2, ![80, 512]⟩
abbrev SD : Shape := ⟨1, ![512]⟩
abbrev SDxD : Shape := ⟨2, ![512, 512]⟩

section Defs

variable (x0 : SNxD.Idx → EReal) (x2 : S2xE.Idx → BitVec 32) (x3 : SExR.Idx → EReal) (x4 : SExA.Idx → EReal)
  (x5 : SKxD.Idx → EReal) (x6 : SD.Idx → EReal) (x7 : SDxD.Idx → EReal) (x8 : SD.Idx → EReal)
  (x9 : SDxD.Idx → EReal) (x10 : SD.Idx → EReal)

/-- The destination node of edge `e`, as the 32-bit word the index array holds. -/
def row (e : Fin 160000) : BitVec 32 := x2 (ix2 (0 : Fin 2) e)

/-- Edge `e` points at node `n`. -/
def hit (n : Fin 10000) (e : Fin 160000) : Prop := row x2 e = BitVec.ofNat 32 n.val

instance (n : Fin 10000) (e : Fin 160000) : Decidable (hit x2 n e) := by unfold hit; infer_instance

/-- The 80 features of edge `e`: radial then angular. -/
def ef (e : Fin 160000) (k : Fin 80) : EReal :=
  if h : k.val < 64 then x3 (ix2 e (⟨k.val, h⟩ : Fin 64)) else x4 (ix2 e (⟨k.val - 64, by have := k.isLt; omega⟩ : Fin 16))

/-- The projected message of edge `e`. -/
def msg (e : Fin 160000) (d : Fin 512) : EReal := (∑ k : Fin 80, ef x3 x4 e k * x5 (ix2 k d)) + x6 (ix1 d)

/-- The reference's aggregate: the messages of the edges that point at `n`, summed onto zero. -/
def aggR (n : Fin 10000) (d : Fin 512) : EReal :=
  0 + ∑ e ∈ Finset.univ.filter (fun e => hit x2 n e), msg x3 x4 x5 x6 e d

/-- The kernel's packed edge features: 128 lanes, `[radial | angular | 1 | 0 … 0]`. -/
def packed (e : Fin 160000) (l : Fin 128) : EReal :=
  if h : l.val < 80 then ef x3 x4 e ⟨l.val, h⟩ else if l.val = 80 then 1 else 0

/-- The kernel's stacked weights: 128 rows, `[W_edge ; b_edge ; 0 … 0]`. -/
def wedge (l : Fin 128) (d : Fin 512) : EReal :=
  if h : l.val < 80 then x5 (ix2 (⟨l.val, h⟩ : Fin 80) d) else if l.val = 80 then x6 (ix1 d) else 0

/-- The kernel's mask entry: one where the edge points at the node, zero elsewhere. -/
def maskv (n : Fin 10000) (e : Fin 160000) : EReal := if hit x2 n e then 1 else 0

/-- The kernel's accumulator once every edge tile has been added: per node and lane, the masked sum of the packed features. -/
def accK (n : Fin 10000) (l : Fin 128) : EReal := ∑ e : Fin 160000, maskv x2 n e * packed x3 x4 e l

/-- The kernel's aggregate: the accumulator times the stacked weights. -/
def aggK (n : Fin 10000) (d : Fin 512) : EReal := ∑ l : Fin 128, accK x2 x3 x4 n l * wedge x5 x6 l d

/-- The node perceptron and the residual, shared by both sides, over any aggregate. -/
def tail (agg : Fin 10000 → Fin 512 → EReal) (n : Fin 10000) (d : Fin 512) : EReal :=
  x0 (ix2 n d) + ((∑ j : Fin 512, max ((∑ i : Fin 512, agg n i * x7 (ix2 i j)) + x8 (ix1 j)) 0 * x9 (ix2 j d)) + x10 (ix1 d))

/-- The kernel's result as one function of the argument arrays. -/
def GK : SNxD.Idx → EReal := fun j => tail x0 x7 x8 x9 x10 (aggK x2 x3 x4 x5 x6) (j 0) (j 1)

/-- The reference's result as one function of the argument arrays. -/
def GR : SNxD.Idx → EReal := fun j => tail x0 x7 x8 x9 x10 (aggR x2 x3 x4 x5 x6) (j 0) (j 1)

end Defs

end Cert.Spec

end
-- ==== Proof.IdealHostVals.lean ====
/-
  What the region finds in the arrays the host operations make before it, read at an index: the packed edge features
  (radial, angular, a lane of ones, zero padding; the narrowing to bf16 is the identity on the extended reals), the row of
  destination nodes, the stacked weights (the edge matrix, the edge bias as row 80, zero rows), and the two perceptron
  biases as rows.
-/
import proofs.«419056_j37220186587493_2_alg».proof.Proof.IdealFrameKit
import proofs.«419056_j37220186587493_2_alg».proof.Proof.Spec
import Idealize.ShloMosaic.Lib.Pipeline.Value
import Idealize.ShloMosaic.Lib.ValueLayout
import Idealize.ShloMosaic.Lib.StableHlo.Run
import Idealize.ShloMosaic.Lib.KernelVsHost
import Idealize.ShloMosaic.Lib.IdealHost

set_option maxRecDepth 16384

noncomputable section

namespace Cert.KernelIdeal.HostVals

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The packed edge features as the host operations compose them: radial, angular and a column of ones concatenated along
    the lanes, padded to 128 lanes with the integer zero converted to a float, then narrowed to bf16. -/
theorem V_v6_eq (c : Dev nD) :
    (V m c main_v6 : S160000x128.Idx → EReal)
      = truncf .bf16 (pad S160000x128 ![0, 0] ![0, 47] ![0, 0]
          (concatenate (α := EReal) S160000x81 1
            [⟨S160000x64, (m ((c : Thread nD τ).loc main_arg3) : S160000x64.Idx → EReal)⟩,
             ⟨S160000x16, (m ((c : Thread nD τ).loc main_arg4) : S160000x16.Idx → EReal)⟩,
             ⟨S160000x1, broadcastInDim S160000x1 ![] bcast_S_S160000x1 (constant (F := Ideal) S_ .f32 0x3F800000#32)⟩]
            concatenates_S160000x64_S160000x16_S160000x1_S160000x81_d1)
          (sitofp (F := Ideal) .f32 (constantI S_ 32 0#32))
          pads_S160000x81_S160000x128_000_0470 h_S_ : FVec Ideal S160000x128 .f32) bitsLt_bf16_f32 := by
  dsimp only [V]
  simp only [hostOps0, hostOps0_1, hostOps0_2, List.flatten_cons, List.flatten_nil, List.append_nil, List.cons_append, List.nil_append]
  after_results
  rfl

/-- Lane `l` of edge `e`'s packed features: below 81 the lane lies inside the padded operand, where the concatenation
    reads the radial features (lanes below 64), the angular ones (64 to 79) or the one (lane 80); from 81 on it is the
    padding value, zero. -/
theorem V_v6_apply (c : Dev nD) (e : Fin 160000) (l : Fin 128) :
    (V m c main_v6 : S160000x128.Idx → EReal) (ix2 e l) = Cert.Spec.packed (m ((c : Thread nD τ).loc main_arg3)) (m ((c : Thread nD τ).loc main_arg4)) e l := by
  rw [V_v6_eq, truncf_apply]
  unfold Cert.Spec.packed
  have hl := l.isLt
  by_cases h1 : l.val < 80
  · rw [dif_pos h1]
    refine ((pad_apply_of_inside _ _ _ _ _ _ _ (ix2 e l) (ix2 e (⟨l.val, by omega⟩ : Fin 81)) (fun a => by
      match a with
      | ⟨0, _⟩ => show e.val = 0 + e.val * (0 + 1); omega
      | ⟨1, _⟩ => show l.val = 0 + l.val * (0 + 1); omega))).trans ?_
    unfold Cert.Spec.ef
    by_cases h3 : l.val < 64
    · rw [dif_pos h3]
      refine concatenate_apply_piece _ _ _ (ix2 e (⟨l.val, by omega⟩ : Fin 81)) 0 ?_ S160000x64 _ rfl rfl 0 rfl (ix2 e (⟨l.val, h3⟩ : Fin 64)) ?_ ?_
      · show (0 : Nat) < 3; omega
      · intro b hb
        match b with
        | ⟨0, _⟩ => rfl
        | ⟨1, _⟩ => exact (hb (Fin.ext rfl)).elim
      · exact Nat.zero_add _
    · rw [dif_neg h3]
      refine concatenate_apply_piece _ _ _ (ix2 e (⟨l.val, by omega⟩ : Fin 81)) 1 ?_ S160000x16 _ rfl rfl 64 rfl (ix2 e (⟨l.val - 64, by omega⟩ : Fin 16)) ?_ ?_
      · show (1 : Nat) < 3; omega
      · intro b hb
        match b with
        | ⟨0, _⟩ => rfl
        | ⟨1, _⟩ => exact (hb (Fin.ext rfl)).elim
      · show 64 + (l.val - 64) = l.val; omega
  · rw [dif_neg h1]
    by_cases h2 : l.val = 80
    · rw [if_pos h2]
      refine ((pad_apply_of_inside _ _ _ _ _ _ _ (ix2 e l) (ix2 e (⟨l.val, by omega⟩ : Fin 81)) (fun a => by
        match a with
        | ⟨0, _⟩ => show e.val = 0 + e.val * (0 + 1); omega
        | ⟨1, _⟩ => show l.val = 0 + l.val * (0 + 1); omega))).trans ?_
      refine (concatenate_apply_piece _ _ _ (ix2 e (⟨l.val, by omega⟩ : Fin 81)) 2 ?_ S160000x1 _ rfl rfl 80 rfl (ix2 e (0 : Fin 1)) ?_ ?_).trans ?_
      · show (2 : Nat) < 3; omega
      · intro b hb
        match b with
        | ⟨0, _⟩ => rfl
        | ⟨1, _⟩ => exact (hb (Fin.ext rfl)).elim
      · show 80 + 0 = l.val; omega
      · show Ideal.ofBits .f32 0x3F800000#32 = 1
        exact Ideal.ofBits_one_f32
    · rw [if_neg h2]
      refine (pad_apply_of_not_inside _ _ _ _ _ _ _ (ix2 e l) (1 : Fin 2) (by
        show ¬(0 ≤ l.val ∧ (l.val - 0) % (0 + 1) = 0 ∧ (l.val - 0) / (0 + 1) < 81)
        omega)).trans ?_
      exact sitofp_zero (φ := .f32)

theorem V_v2_apply (c : Dev nD) (e : Fin 160000) :
    (V m c main_v2 : S1x160000.Idx → BitVec 32) (ix2 (0 : Fin 1) e) = Cert.Spec.row (m ((c : Thread nD τ).loc main_arg2)) e := by
  have h : (V m c main_v2 : S1x160000.Idx → BitVec 32)
      = shapeCast S1x160000 (shapeCast S160000 (extractStridedSlice S1x160000 ![0, 0]
          (m ((c : Thread nD τ).loc main_arg2) : S2x160000.Idx → BitVec 32) slices_S2x160000_S1x160000_0_0)
          shapeCasts_S1x160000_S160000) shapeCasts_S160000_S1x160000 := by
    dsimp only [V]
    simp only [hostOps0, hostOps0_1, hostOps0_2, List.flatten_cons, List.flatten_nil, List.append_nil, List.cons_append, List.nil_append]
    after_results
    rfl
  rw [h, shapeCast_a_1a_apply, shapeCast_1a_a_apply]
  exact extractStridedSlice_apply _ _ _ _ (ix2 (0 : Fin 2) e) (fun a => by
    match a with
    | ⟨0, _⟩ => rfl
    | ⟨1, _⟩ => exact (Nat.zero_add _).symm)

/-- The stacked weights as the host operations compose them: the edge matrix, the edge bias as one row, and 47 rows of
    zeros, concatenated along the rows. -/
theorem V_v9_eq (c : Dev nD) :
    (V m c main_v9 : S128x512.Idx → EReal)
      = concatenate (α := EReal) S128x512 0
          [⟨S80x512, (m ((c : Thread nD τ).loc main_arg5) : S80x512.Idx → EReal)⟩,
           ⟨S1x512, shapeCast S1x512 (m ((c : Thread nD τ).loc main_arg6) : S512.Idx → EReal) shapeCasts_S512_S1x512⟩,
           ⟨S47x512, broadcastInDim S47x512 ![] bcast_S_S47x512 (constant (F := Ideal) S_ .f32 0x00000000#32)⟩]
          concatenates_S80x512_S1x512_S47x512_S128x512_d0 := by
  dsimp only [V]
  simp only [hostOps0, hostOps0_1, hostOps0_2, List.flatten_cons, List.flatten_nil, List.append_nil, List.cons_append, List.nil_append]
  after_results
  rfl

/-- Row `l` of the stacked weights: below 80 a row of the edge matrix, at 80 the edge bias, above it zero. -/
theorem V_v9_apply (c : Dev nD) (l : Fin 128) (d : Fin 512) :
    (V m c main_v9 : S128x512.Idx → EReal) (ix2 l d) = Cert.Spec.wedge (m ((c : Thread nD τ).loc main_arg5)) (m ((c : Thread nD τ).loc main_arg6)) l d := by
  rw [V_v9_eq]
  unfold Cert.Spec.wedge
  have hl := l.isLt
  by_cases h1 : l.val < 80
  · rw [dif_pos h1]
    refine concatenate_apply_piece _ _ _ (ix2 l d) 0 ?_ S80x512 _ rfl rfl 0 rfl (ix2 (⟨l.val, h1⟩ : Fin 80) d) ?_ ?_
    · show (0 : Nat) < 3; omega
    · intro b hb
      match b with
      | ⟨0, _⟩ => exact (hb (Fin.ext rfl)).elim
      | ⟨1, _⟩ => rfl
    · exact Nat.zero_add _
  · rw [dif_neg h1]
    by_cases h2 : l.val = 80
    · rw [if_pos h2]
      refine (concatenate_apply_piece _ _ _ (ix2 l d) 1 ?_ S1x512 _ rfl rfl 80 rfl (ix2 (0 : Fin 1) d) ?_ ?_).trans ?_
      · show (1 : Nat) < 3; omega
      · intro b hb
        match b with
        | ⟨0, _⟩ => exact (hb (Fin.ext rfl)).elim
        | ⟨1, _⟩ => rfl
      · show 80 + 0 = l.val; omega
      · exact shapeCast_a_1a_apply _ _ 0 d
    · rw [if_neg h2]
      refine (concatenate_apply_piece _ _ _ (ix2 l d) 2 ?_ S47x512 _ rfl rfl 81 rfl (ix2 (⟨l.val - 81, by omega⟩ : Fin 47) d) ?_ ?_).trans ?_
      · show (2 : Nat) < 3; omega
      · intro b hb
        match b with
        | ⟨0, _⟩ => exact (hb (Fin.ext rfl)).elim
        | ⟨1, _⟩ => rfl
      · show 81 + (l.val - 81) = l.val; omega
      · show Ideal.ofBits .f32 0x00000000#32 = 0
        exact Ideal.ofBits_zero_f32

theorem V_v10_apply (c : Dev nD) (d : Fin 512) :
    (V m c main_v10 : S1x512.Idx → EReal) (ix2 (0 : Fin 1) d) = (m ((c : Thread nD τ).loc main_arg8)) (ix1 d) := by
  have h : (V m c main_v10 : S1x512.Idx → EReal)
      = shapeCast S1x512 (m ((c : Thread nD τ).loc main_arg8) : S512.Idx → EReal) shapeCasts_S512_S1x512 := by
    dsimp only [V]
    simp only [hostOps0, hostOps0_1, hostOps0_2, List.flatten_cons, List.flatten_nil, List.append_nil, List.cons_append, List.nil_append]
    after_results
    rfl
  rw [h]
  exact shapeCast_a_1a_apply _ _ 0 d

theorem V_v11_apply (c : Dev nD) (d : Fin 512) :
    (V m c main_v11 : S1x512.Idx → EReal) (ix2 (0 : Fin 1) d) = (m ((c : Thread nD τ).loc main_arg10)) (ix1 d) := by
  have h : (V m c main_v11 : S1x512.Idx → EReal)
      = shapeCast S1x512 (m ((c : Thread nD τ).loc main_arg10) : S512.Idx → EReal) shapeCasts_S512_S1x512 := by
    dsimp only [V]
    simp only [hostOps0, hostOps0_1, hostOps0_2, List.flatten_cons, List.flatten_nil, List.append_nil, List.cons_append, List.nil_append]
    after_results
    rfl
  rw [h]
  exact shapeCast_a_1a_apply _ _ 0 d

end Cert.KernelIdeal.HostVals

end
-- ==== Proof.IdealPayload.lean ====
/-
  The body's three stored values read at an index, on the extended reals.  The reset stores zeros.  The accumulator
  update adds to each (node, lane) entry the tile's masked sum: the mask is one exactly where the tile's index word equals
  the node's number `1000 · (node tile) + (row in the tile)`.  The epilogue multiplies the accumulator by the stacked
  weights, applies the two-layer perceptron with a rectifier and adds the node's features.  Every change of float format
  is the identity, and each matrix product into a zero accumulator is a plain sum.
-/
import proofs.«419056_j37220186587493_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Payload

open Cert.KernelIdeal Cert.KernelIdeal.Gen
open Idealize.ShloMosaic Idealize.ShloMosaic.TcCoe Idealize.ShloMosaic.ValueIdx

/-! ## The three matrix products: which entries of the operands an output entry multiplies

Each product contracts the left operand's columns with the right operand's rows and has no batch axis: the output entry
`(p, q)` and the contraction index `k` read the left operand at `(p, k)` and the right at `(k, q)`. -/

/-! In each of the next twelve facts `i` is an output index and `q` a contraction index: the left operand's row is the
output's row and its column the contraction coordinate; the right operand's row is the contraction coordinate and its
column the output's column. -/

theorem lhs_acc_0 (i : S1000x128.Idx) (q : dot_S1000x1280_S1280x128_S1000x128_1_0_0_1_n_n.contr.Idx) :
    (dot_S1000x1280_S1280x128_S1000x128_1_0_0_1_n_n.lhsIdx i q 0).val = (i 0).val := by
  unfold DotDims.lhsIdx
  rw [dif_neg (show ¬(0 : Fin S1000x1280.rank) ∈ dot_S1000x1280_S1280x128_S1000x128_1_0_0_1_n_n.lhsBatch by decide), dif_pos (show (0 : Fin S1000x1280.rank) ∈ dot_S1000x1280_S1280x128_S1000x128_1_0_0_1_n_n.lhsNonContracting by decide)]
  rfl
theorem lhs_acc_1 (i : S1000x128.Idx) (q : dot_S1000x1280_S1280x128_S1000x128_1_0_0_1_n_n.contr.Idx) :
    (dot_S1000x1280_S1280x128_S1000x128_1_0_0_1_n_n.lhsIdx i q 1).val = (q ⟨0, by decide⟩).val :=
  dot_S1000x1280_S1280x128_S1000x128_1_0_0_1_n_n.lhsIdx_val_of_single rfl i q
theorem rhs_acc_0 (i : S1000x128.Idx) (q : dot_S1000x1280_S1280x128_S1000x128_1_0_0_1_n_n.contr.Idx) :
    (dot_S1000x1280_S1280x128_S1000x128_1_0_0_1_n_n.rhsIdx i q 0).val = (q ⟨0, by decide⟩).val :=
  dot_S1000x1280_S1280x128_S1000x128_1_0_0_1_n_n.rhsIdx_val_of_single rfl i q
theorem rhs_acc_1 (i : S1000x128.Idx) (q : dot_S1000x1280_S1280x128_S1000x128_1_0_0_1_n_n.contr.Idx) :
    (dot_S1000x1280_S1280x128_S1000x128_1_0_0_1_n_n.rhsIdx i q 1).val = (i 1).val := by
  unfold DotDims.rhsIdx
  rw [dif_neg (show ¬(1 : Fin S1280x128.rank) ∈ dot_S1000x1280_S1280x128_S1000x128_1_0_0_1_n_n.rhsBatch by decide), dif_pos (show (1 : Fin S1280x128.rank) ∈ dot_S1000x1280_S1280x128_S1000x128_1_0_0_1_n_n.rhsNonContracting by decide)]
  rfl

theorem lhs_edge_0 (i : S1000x512.Idx) (q : dot_S1000x128_S128x512_S1000x512_1_0_0_1_n_n.contr.Idx) :
    (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide), dif_pos (show (0 : Fin S1000x128.rank) ∈ dot_S1000x128_S128x512_S1000x512_1_0_0_1_n_n.lhsNonContracting by decide)]
  rfl
theorem lhs_edge_1 (i : S1000x512.Idx) (q : dot_S1000x128_S128x512_S1000x512_1_0_0_1_n_n.contr.Idx) :
    (dot_S1000x128_S128x512_S1000x512_1_0_0_1_n_n.lhsIdx i q 1).val = (q ⟨0, by decide⟩).val :=
  dot_S1000x128_S128x512_S1000x512_1_0_0_1_n_n.lhsIdx_val_of_single rfl i q
theorem rhs_edge_0 (i : S1000x512.Idx) (q : dot_S1000x128_S128x512_S1000x512_1_0_0_1_n_n.contr.Idx) :
    (dot_S1000x128_S128x512_S1000x512_1_0_0_1_n_n.rhsIdx i q 0).val = (q ⟨0, by decide⟩).val :=
  dot_S1000x128_S128x512_S1000x512_1_0_0_1_n_n.rhsIdx_val_of_single rfl i q
theorem rhs_edge_1 (i : S1000x512.Idx) (q : dot_S1000x128_S128x512_S1000x512_1_0_0_1_n_n.contr.Idx) :
    (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide), dif_pos (show (1 : Fin S128x512.rank) ∈ dot_S1000x128_S128x512_S1000x512_1_0_0_1_n_n.rhsNonContracting by decide)]
  rfl

theorem lhs_node_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_node_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_node_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_node_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The mask (1000 × 1280) times the tile's packed features (1280 × 128), into zeros: entry `(p, q)` is `∑ k, a (p, k) · b (k, q)`. -/
theorem matmul_acc_apply {φ₁ φ₂ : FTy} (a : FVec Ideal S1000x1280 φ₁) (b : FVec Ideal S1280x128 φ₂) (p : Fin 1000) (q : Fin 128) :
    matmul (F := Ideal) dot_S1000x1280_S1280x128_S1000x128_1_0_0_1_n_n none a b (constant (F := Ideal) S1000x128 .f32 0x00000000#32) (ix2 p q)
      = ∑ k : Fin 1280, a (ix2 p k) * b (ix2 k q) := by
  simp only [matmul]
  rw [Ideal.matmul_constant_zero_apply, ← Equiv.sum_comp (ValueIdx.contrEquiv1 dot_S1000x1280_S1280x128_S1000x128_1_0_0_1_n_n 1280 rfl rfl).symm]
  refine Finset.sum_congr rfl fun k _ => ?_
  have hk := ValueIdx.contrEquiv1_symm_val dot_S1000x1280_S1280x128_S1000x128_1_0_0_1_n_n 1280 rfl rfl k
  have el : dot_S1000x1280_S1280x128_S1000x128_1_0_0_1_n_n.lhsIdx (ix2 p q) ((ValueIdx.contrEquiv1 dot_S1000x1280_S1280x128_S1000x128_1_0_0_1_n_n 1280 rfl rfl).symm k) = ix2 p k := funext fun x => Fin.ext (by
    match x with
    | ⟨0, _⟩ => exact lhs_acc_0 _ _
    | ⟨1, _⟩ => exact (lhs_acc_1 _ _).trans hk)
  have er : dot_S1000x1280_S1280x128_S1000x128_1_0_0_1_n_n.rhsIdx (ix2 p q) ((ValueIdx.contrEquiv1 dot_S1000x1280_S1280x128_S1000x128_1_0_0_1_n_n 1280 rfl rfl).symm k) = ix2 k q := funext fun x => Fin.ext (by
    match x with
    | ⟨0, _⟩ => exact (rhs_acc_0 _ _).trans hk
    | ⟨1, _⟩ => exact rhs_acc_1 _ _)
  rw [el, er]

/-- The accumulator (1000 × 128) times the stacked weights (128 × 512), into zeros. -/
theorem matmul_edge_apply {φ₁ φ₂ : FTy} (a : FVec Ideal S1000x128 φ₁) (b : FVec Ideal S128x512 φ₂) (p : Fin 1000) (q : Fin 512) :
    matmul (F := Ideal) dot_S1000x128_S128x512_S1000x512_1_0_0_1_n_n none a b (constant (F := Ideal) S1000x512 .f32 0x00000000#32) (ix2 p q)
      = ∑ k : Fin 128, a (ix2 p k) * b (ix2 k q) := by
  simp only [matmul]
  rw [Ideal.matmul_constant_zero_apply, ← Equiv.sum_comp (ValueIdx.contrEquiv1 dot_S1000x128_S128x512_S1000x512_1_0_0_1_n_n 128 rfl rfl).symm]
  refine Finset.sum_congr rfl fun k _ => ?_
  have hk := ValueIdx.contrEquiv1_symm_val dot_S1000x128_S128x512_S1000x512_1_0_0_1_n_n 128 rfl rfl k
  have el : dot_S1000x128_S128x512_S1000x512_1_0_0_1_n_n.lhsIdx (ix2 p q) ((ValueIdx.contrEquiv1 dot_S1000x128_S128x512_S1000x512_1_0_0_1_n_n 128 rfl rfl).symm k) = ix2 p k := funext fun x => Fin.ext (by
    match x with
    | ⟨0, _⟩ => exact lhs_edge_0 _ _
    | ⟨1, _⟩ => exact (lhs_edge_1 _ _).trans hk)
  have er : dot_S1000x128_S128x512_S1000x512_1_0_0_1_n_n.rhsIdx (ix2 p q) ((ValueIdx.contrEquiv1 dot_S1000x128_S128x512_S1000x512_1_0_0_1_n_n 128 rfl rfl).symm k) = ix2 k q := funext fun x => Fin.ext (by
    match x with
    | ⟨0, _⟩ => exact (rhs_edge_0 _ _).trans hk
    | ⟨1, _⟩ => exact rhs_edge_1 _ _)
  rw [el, er]

/-- A perceptron layer: activations (1000 × 512) times a weight matrix (512 × 512), into zeros. -/
theorem matmul_node_apply {φ₁ φ₂ : FTy} (a : FVec Ideal S1000x512 φ₁) (b : FVec Ideal S512x512 φ₂) (p : Fin 1000) (q : Fin 512) :
    matmul (F := Ideal) dot_S1000x512_S512x512_S1000x512_1_0_0_1_n_n none a b (constant (F := Ideal) S1000x512 .f32 0x00000000#32) (ix2 p q)
      = ∑ k : Fin 512, a (ix2 p k) * b (ix2 k q) := by
  simp only [matmul]
  rw [Ideal.matmul_constant_zero_apply, ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p q) ((ValueIdx.contrEquiv1 dot_S1000x512_S512x512_S1000x512_1_0_0_1_n_n 512 rfl rfl).symm k) = ix2 p k := funext fun x => Fin.ext (by
    match x with
    | ⟨0, _⟩ => exact lhs_node_0 _ _
    | ⟨1, _⟩ => exact (lhs_node_1 _ _).trans hk)
  have er : dot_S1000x512_S512x512_S1000x512_1_0_0_1_n_n.rhsIdx (ix2 p q) ((ValueIdx.contrEquiv1 dot_S1000x512_S512x512_S1000x512_1_0_0_1_n_n 512 rfl rfl).symm k) = ix2 k q := funext fun x => Fin.ext (by
    match x with
    | ⟨0, _⟩ => exact (rhs_node_0 _ _).trans hk
    | ⟨1, _⟩ => exact rhs_node_1 _ _)
  rw [el, er]

/-! ## Scalars -/

/-- The float zero literal is the real zero. -/
theorem zero_word : (Scalar.ofBits (F := Ideal) .f32 0x00000000#32 : EReal) = 0 := Ideal.ofBits_zero_f32

/-! ## The mask

Row `p` of node tile `a` is node `1000 · a + p`; the mask entry at (row `p`, edge `k`) compares that number, as a
32-bit word, with the tile's index word of edge `k`, widens the resulting bit to a word and converts it to a float: one
where they are equal, zero elsewhere. -/

/-- The word arithmetic of a node's number: `a · 1000 + p` computed on words is the word of the natural number. -/
theorem word_of_tile_row (a p : Nat) : BitVec.ofNat 32 a * 1000#32 + BitVec.ofNat 32 p = BitVec.ofNat 32 (a * 1000 + p) := by
  rw [BitVec.ofNat_add, BitVec.ofNat_mul]

/-- An equality test's bit, widened to a word and read as a signed integer, is one or zero as a real. -/
theorem bit_real (a b : BitVec 32) :
    (FloatOps.sitofp (F := Ideal) .f32 ((IntOp.cmpi .eq a b).setWidth 32) : EReal) = if b = a then 1 else 0 := by
  show ((((IntOp.cmpi .eq a b).setWidth 32).toInt : ℝ) : EReal) = _
  unfold IntOp.cmpi
  by_cases h : b = a
  · subst h
    rw [if_pos rfl]
    simp
  · rw [if_neg h]
    have h' : (a == b) = false := by
      rw [beq_eq_false_iff_ne]; exact fun e => h e.symm
    simp [h']

/-- The mask's entry for tile `a`, row `p`, against the index word `w`. -/
theorem mask_word (a p : Nat) (w : BitVec 32) :
    (FloatOps.sitofp (F := Ideal) .f32
        ((IntOp.cmpi .eq (IntOp.addi (Scalar.muli (BitVec.ofNat 32 a) 1000#32) (BitVec.ofNat 32 p)) w).setWidth 32) : EReal)
      = if w = BitVec.ofNat 32 (a * 1000 + p) then 1 else 0 := by
  rw [bit_real]
  show (if w = BitVec.ofNat 32 a * 1000#32 + BitVec.ofNat 32 p then (1 : EReal) else 0) = _
  rw [word_of_tile_row]

/-- An integer comparison at an index compares the elements. -/
theorem cmpi_at {s : Shape} {w : Nat} (c : CmpIPredicate) (x y : IVec s w) (j : s.Idx) : cmpi c x y j = IntOp.cmpi c (x j) (y j) := rfl
/-- An integer sum at an index adds the elements. -/
theorem addi_at {s : Shape} {w : Nat} (x y : IVec s w) (j : s.Idx) : addi x y j = IntOp.addi (x j) (y j) := rfl
/-- The row counter of the 1000 × 1280 mask reads the row. -/
theorem iota_row (p : Fin 1000) (k : Fin 1280) :
    iota .tc S1000x1280 32 [0] iota_S1000x1280_d0_w32 (ix2 p k) = BitVec.ofNat 32 p.val :=
  iota_single_apply .tc S1000x1280 32 0 iota_S1000x1280_d0_w32 (ix2 p k)

/-- The reset stores zero at every (row, lane). -/
theorem pay1_apply (p : Fin 1000) (q : Fin 128) : k0_pay1 (F := Ideal) (ix2 p q) = 0 := by
  unfold k0_pay1
  rw [shapeCast_self]
  exact Ideal.ofBits_zero_f32

/-- The accumulator update at (row `p`, lane `q`) of node tile `i 0`: the old entry plus, over the tile's 1280 edges, the
    mask entry (one exactly where the edge's index word is the node's number) times the edge's packed feature. -/
theorem pay2_apply (i : grid0.Coords) (v3 : Vec Ideal S1280x128 .bf16) (v5 : Vec Ideal S1x1280 .i32) (v16 : Vec Ideal S1000x128 .f32)
    (p : Fin 1000) (q : Fin 128) :
    k0_pay2 (F := Ideal) i v3 v5 v16 (ix2 p q)
      = v16 (ix2 p q) + ∑ e' : Fin 1280, (if v5 (ix2 (0 : Fin 1) e') = BitVec.ofNat 32 ((i 0).val * 1000 + p.val) then (1 : EReal) else 0) * v3 (ix2 e' q) := by
  simp only [k0_pay2, shapeCast_self, addf_apply, truncf_apply, sitofp_apply, extui_apply, cmpi_at, addi_at, broadcast_apply,
    broadcastTo_1b_ab_apply, matmul_acc_apply]
  refine congrArg (v16 (ix2 p q) + ·) (Finset.sum_congr rfl fun k _ => ?_)
  refine congrArg (· * v3 (ix2 k q)) ?_
  rw [iota_row]
  exact mask_word (i 0).val p.val (v5 (ix2 0 k))

/-- The epilogue at (row `p`, column `d`): the node's feature plus the second layer of the perceptron, applied to the
    rectified first layer of the accumulator row times the stacked weights. -/
theorem pay3_apply (v25 : Vec Ideal S1000x128 .f32) (v27 : Vec Ideal S128x512 .f32) (v32 : Vec Ideal S512x512 .f32) (v35 : Vec Ideal S1x512 .f32)
    (v42 : Vec Ideal S512x512 .f32) (v45 : Vec Ideal S1x512 .f32) (v49 : Vec Ideal S1000x512 .f32) (p : Fin 1000) (d : Fin 512) :
    k0_pay3 (F := Ideal) v25 v27 v32 v35 v42 v45 v49 (ix2 p d)
      = v49 (ix2 p d) + ((∑ j : Fin 512, max ((∑ i : Fin 512, (∑ l : Fin 128, v25 (ix2 p l) * v27 (ix2 l i)) * v32 (ix2 i j)) + v35 (ix2 (0 : Fin 1) j)) 0
          * v42 (ix2 j d)) + v45 (ix2 (0 : Fin 1) d)) := by
  simp only [k0_pay3, shapeCast_self, addf_apply, maximumf_apply, truncf_apply, broadcast_apply, broadcastTo_1b_ab_apply,
    matmul_node_apply, matmul_edge_apply, zero_word]

end Cert.KernelIdeal.Payload

end
-- ==== Proof.IdealBlocks.lean ====
/-
  Where a block sits in its array.  Grid point `t` is edge tile `t % 125` of node tile `t / 125`.  The packed edge
  features and the row of destination nodes are read 1280 edges at a time, at the edge tile's offset; the stacked weights,
  the two perceptron matrices and their biases are one block each; the node features and the result are read 1000 nodes at
  a time, at the node tile's offset.  The ten node tiles' last points write blocks that cover the result array.
-/
import proofs.«419056_j37220186587493_2_alg».proof.Proof.IdealFrameKit
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The printed index maps, decided once over the grid -/

theorem idx0 : ∀ t : Fin cfg0.N, win0_0.index t 0 = t.val % 125 ∧ win0_0.index t 1 = 0 :=
  (by decide +kernel : ∀ t : Fin grid0.N, win0_0.index t 0 = t.val % 125 ∧ win0_0.index t 1 = 0)
theorem idx1 : ∀ t : Fin cfg0.N, win0_1.index t 0 = 0 ∧ win0_1.index t 1 = t.val % 125 :=
  (by decide +kernel : ∀ t : Fin grid0.N, win0_1.index t 0 = 0 ∧ win0_1.index t 1 = t.val % 125)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val / 125 ∧ win0_7.index t 1 = 0 :=
  (by decide +kernel : ∀ t : Fin grid0.N, win0_7.index t 0 = t.val / 125 ∧ win0_7.index t 1 = 0)
theorem idx8 : ∀ t : Fin cfg0.N, win0_8.index t 0 = t.val / 125 ∧ win0_8.index t 1 = 0 :=
  (by decide +kernel : ∀ t : Fin grid0.N, win0_8.index t 0 = t.val / 125 ∧ win0_8.index t 1 = 0)
/-- The node tile of a point, as the kernel's first grid coordinate. -/
theorem coord0 : ∀ t : Fin cfg0.N, ((grid0.coords t) 0).val = t.val / 125 :=
  (by decide +kernel : ∀ t : Fin grid0.N, ((grid0.coords t) 0).val = t.val / 125)

theorem tile_lt (t : Fin cfg0.N) (e' : Fin 1280) : (t.val % 125) * 1280 + e'.val < 160000 := by
  have := Nat.mod_lt t.val (show 125 > 0 by decide); have := e'.isLt; omega
theorem node_lt (t : Fin cfg0.N) (p : Fin 1000) : (t.val / 125) * 1000 + p.val < 10000 := by
  have hN : t.val < 1250 := lt_of_lt_of_eq t.isLt (show cfg0.N = 1250 from N_0)
  have := p.isLt; omega

/-- Edge `e'` of the point's tile, as an edge of the whole graph. -/
abbrev edgeOf (t : Fin cfg0.N) (e' : Fin 1280) : Fin 160000 := ⟨(t.val % 125) * 1280 + e'.val, tile_lt t e'⟩
/-- Row `p` of the point's node tile, as a node of the whole graph. -/
abbrev nodeOf (t : Fin cfg0.N) (p : Fin 1000) : Fin 10000 := ⟨(t.val / 125) * 1000 + p.val, node_lt t p⟩

/-! ## The input blocks -/

theorem blk0 (c : Dev nD) (t : Fin cfg0.N) (e' : Fin 1280) (q : Fin 128) :
    (iblk m c 0 t : Vec Ideal S1280x128 .bf16) (ix2 e' q) = (V m c main_v6 : S160000x128.Idx → EReal) (ix2 (edgeOf t e') q) := by
  unfold iblk
  rw [View.read_apply]
  show (V m c main_v6 : S160000x128.Idx → EReal) _ = _
  congr 1
  funext a
  apply Fin.ext
  match a with
  | ⟨0, _⟩ => show win0_0.index t 0 * 1280 + 1 * e'.val = (t.val % 125) * 1280 + e'.val; rw [(idx0 t).1]; omega
  | ⟨1, _⟩ => show win0_0.index t 1 * 128 + 1 * q.val = q.val; rw [(idx0 t).2]; omega

theorem blk1 (c : Dev nD) (t : Fin cfg0.N) (e' : Fin 1280) :
    (iblk m c 1 t : Vec Ideal S1x1280 .i32) (ix2 (0 : Fin 1) e') = (V m c main_v2 : S1x160000.Idx → BitVec 32) (ix2 (0 : Fin 1) (edgeOf t e')) := by
  unfold iblk
  rw [View.read_apply]
  show (V m c main_v2 : S1x160000.Idx → BitVec 32) _ = _
  congr 1
  funext a
  apply Fin.ext
  match a with
  | ⟨0, _⟩ => show win0_1.index t 0 * 1 + 1 * 0 = 0; rw [(idx1 t).1]
  | ⟨1, _⟩ => show win0_1.index t 1 * 1280 + 1 * e'.val = (t.val % 125) * 1280 + e'.val; rw [(idx1 t).2]; omega

theorem blk2 (c : Dev nD) (t : Fin cfg0.N) (a : Fin 128) (b : Fin 512) :
    (iblk m c 2 t : Vec Ideal S128x512 .f32) (ix2 a b) = (V m c main_v9 : S128x512.Idx → EReal) (ix2 a b) := by
  unfold iblk
  rw [View.read_apply]
  show (V m c main_v9 : S128x512.Idx → EReal) _ = _
  congr 1
  funext x
  apply Fin.ext
  match x with
  | ⟨0, _⟩ => show win0_2.index t 0 * 128 + 1 * a.val = a.val; rw [(idx2 t).1]; omega
  | ⟨1, _⟩ => show win0_2.index t 1 * 512 + 1 * b.val = b.val; rw [(idx2 t).2]; omega

theorem blk3 (c : Dev nD) (t : Fin cfg0.N) (a : Fin 512) (b : Fin 512) :
    (iblk m c 3 t : Vec Ideal S512x512 .f32) (ix2 a b) = (V m c main_arg7 : S512x512.Idx → EReal) (ix2 a b) := by
  unfold iblk
  rw [View.read_apply]
  show (V m c main_arg7 : S512x512.Idx → EReal) _ = _
  congr 1
  funext x
  apply Fin.ext
  match x with
  | ⟨0, _⟩ => show win0_3.index t 0 * 512 + 1 * a.val = a.val; rw [(idx3 t).1]; omega
  | ⟨1, _⟩ => show win0_3.index t 1 * 512 + 1 * b.val = b.val; rw [(idx3 t).2]; omega

theorem blk4 (c : Dev nD) (t : Fin cfg0.N) (a : Fin 1) (b : Fin 512) :
    (iblk m c 4 t : Vec Ideal S1x512 .f32) (ix2 a b) = (V m c main_v10 : S1x512.Idx → EReal) (ix2 a b) := by
  unfold iblk
  rw [View.read_apply]
  show (V m c main_v10 : S1x512.Idx → EReal) _ = _
  congr 1
  funext x
  apply Fin.ext
  match x with
  | ⟨0, _⟩ => show win0_4.index t 0 * 1 + 1 * a.val = a.val; rw [(idx4 t).1]; omega
  | ⟨1, _⟩ => show win0_4.index t 1 * 512 + 1 * b.val = b.val; rw [(idx4 t).2]; omega

theorem blk5 (c : Dev nD) (t : Fin cfg0.N) (a : Fin 512) (b : Fin 512) :
    (iblk m c 5 t : Vec Ideal S512x512 .f32) (ix2 a b) = (V m c main_arg9 : S512x512.Idx → EReal) (ix2 a b) := by
  unfold iblk
  rw [View.read_apply]
  show (V m c main_arg9 : S512x512.Idx → EReal) _ = _
  congr 1
  funext x
  apply Fin.ext
  match x with
  | ⟨0, _⟩ => show win0_5.index t 0 * 512 + 1 * a.val = a.val; rw [(idx5 t).1]; omega
  | ⟨1, _⟩ => show win0_5.index t 1 * 512 + 1 * b.val = b.val; rw [(idx5 t).2]; omega

theorem blk6 (c : Dev nD) (t : Fin cfg0.N) (a : Fin 1) (b : Fin 512) :
    (iblk m c 6 t : Vec Ideal S1x512 .f32) (ix2 a b) = (V m c main_v11 : S1x512.Idx → EReal) (ix2 a b) := by
  unfold iblk
  rw [View.read_apply]
  show (V m c main_v11 : S1x512.Idx → EReal) _ = _
  congr 1
  funext x
  apply Fin.ext
  match x with
  | ⟨0, _⟩ => show win0_6.index t 0 * 1 + 1 * a.val = a.val; rw [(idx6 t).1]; omega
  | ⟨1, _⟩ => show win0_6.index t 1 * 512 + 1 * b.val = b.val; rw [(idx6 t).2]; omega

theorem blk7 (c : Dev nD) (t : Fin cfg0.N) (p : Fin 1000) (d : Fin 512) :
    (iblk m c 7 t : Vec Ideal S1000x512 .f32) (ix2 p d) = (V m c main_arg0 : S10000x512.Idx → EReal) (ix2 (nodeOf t p) d) := by
  unfold iblk
  rw [View.read_apply]
  show (V m c main_arg0 : S10000x512.Idx → EReal) _ = _
  congr 1
  funext x
  apply Fin.ext
  match x with
  | ⟨0, _⟩ => show win0_7.index t 0 * 1000 + 1 * p.val = (t.val / 125) * 1000 + p.val; rw [(idx7 t).1]; omega
  | ⟨1, _⟩ => show win0_7.index t 1 * 512 + 1 * d.val = d.val; rw [(idx7 t).2]; omega

/-! ## The output block -/

/-- The output window's block at point `t`, read off any contents `G` of the result array: rows of the point's node tile. -/
theorem blk8 (c : Dev nD) (t : Fin cfg0.N) (G : Buf (Elt Ideal) ((c : Thread nD τ).loc main_v12)) (p : Fin 1000) (d : Fin 512) :
    (((cfg0.win 8).blk t).view.read (Elt Ideal) G : Vec Ideal S1000x512 .f32) (ix2 p d)
      = (G : S10000x512.Idx → EReal) (ix2 (nodeOf t p) d) := by
  rw [View.read_apply]
  show (G : S10000x512.Idx → EReal) _ = _
  congr 1
  funext x
  apply Fin.ext
  match x with
  | ⟨0, _⟩ => show win0_8.index t 0 * 1000 + 1 * p.val = (t.val / 125) * 1000 + p.val; rw [(idx8 t).1]; omega
  | ⟨1, _⟩ => show win0_8.index t 1 * 512 + 1 * d.val = d.val; rw [(idx8 t).2]; omega

theorem xs8 : ∀ t : Fin cfg0.N, win0_8.xsize (grid0.coords t) 0 = 1000 ∧ win0_8.xsize (grid0.coords t) 1 = 512 :=
  (by decide +kernel : ∀ t : Fin grid0.N, win0_8.xsize (grid0.coords t) 0 = 1000 ∧ win0_8.xsize (grid0.coords t) 1 = 512)

/-- Every entry of the result array lies in the block some node tile's last point writes back: row `r` in that of node
    tile `r / 1000`. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  have h0 : (i 0 : Nat) < 10000 := (i 0).isLt
  have h1 : (i 1 : Nat) < 512 := (i 1).isLt
  have hN : cfg0.N = 1250 := N_0
  have hlt : ((i 0 : Nat) / 1000) * 125 + 124 < cfg0.N := by rw [hN]; omega
  refine ⟨⟨((i 0 : Nat) / 1000) * 125 + 124, hlt⟩, (flush0_8 _).mpr (by show (((i 0 : Nat) / 1000) * 125 + 124) % 125 = 124; omega), ?_⟩
  show i ∈ ((View.whole main_v12).slice (win0_8.rect ⟨((i 0 : Nat) / 1000) * 125 + 124, hlt⟩)).set
  rw [View.set_slice_whole, Rect.mem_set_unit]
  intro a
  match a with
  | ⟨0, _⟩ =>
    show win0_8.index ⟨((i 0 : Nat) / 1000) * 125 + 124, hlt⟩ 0 * win0_8.size 0 ≤ (i 0 : Nat) ∧ (i 0 : Nat) < win0_8.index ⟨((i 0 : Nat) / 1000) * 125 + 124, hlt⟩ 0 * win0_8.size 0 + win0_8.xsize (grid0.coords ⟨((i 0 : Nat) / 1000) * 125 + 124, hlt⟩) 0
    rw [(idx8 _).1, (xs8 _).1, show win0_8.size 0 = 1000 from rfl]
    show (((i 0 : Nat) / 1000) * 125 + 124) / 125 * 1000 ≤ (i 0 : Nat) ∧ (i 0 : Nat) < (((i 0 : Nat) / 1000) * 125 + 124) / 125 * 1000 + 1000
    omega
  | ⟨1, _⟩ =>
    show win0_8.index ⟨((i 0 : Nat) / 1000) * 125 + 124, hlt⟩ 1 * win0_8.size 1 ≤ (i 1 : Nat) ∧ (i 1 : Nat) < win0_8.index ⟨((i 0 : Nat) / 1000) * 125 + 124, hlt⟩ 1 * win0_8.size 1 + win0_8.xsize (grid0.coords ⟨((i 0 : Nat) / 1000) * 125 + 124, hlt⟩) 1
    rw [(idx8 _).2, (xs8 _).2]
    omega

end Cert.KernelIdeal.Blocks

end
-- ==== Proof.IdealFinal.lean ====
/-
  The kernel's result array, as one function of the argument arrays.  The accumulator after the edge tile `ei` of node
  tile `ni` holds, per (row, lane), the masked sum of the packed features over the edges of tiles `0 … ei` (by induction
  on the point: the first tile resets to zero and adds, each later one adds); at the last tile it is the specification's
  `accK` on the tile's nodes, the epilogue turns it into the specification's `GK` on those nodes, and that block is the
  one the pipeline writes back: the ten node tiles' blocks cover the result array.
-/
import proofs.«419056_j37220186587493_2_alg».proof.Proof.IdealFrame
import proofs.«419056_j37220186587493_2_alg».proof.Proof.IdealPieces
import proofs.«419056_j37220186587493_2_alg».proof.Proof.IdealHostVals
import proofs.«419056_j37220186587493_2_alg».proof.Proof.IdealPayload
import proofs.«419056_j37220186587493_2_alg».proof.Proof.IdealBlocks
import proofs.«419056_j37220186587493_2_alg».proof.Proof.Spec
import Idealize.ShloMosaic.Lib.Pipeline.Value

set_option maxRecDepth 16384

noncomputable section

namespace Cert.KernelIdeal.Final

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.KernelIdeal.HostVals Cert.KernelIdeal.Payload Cert.KernelIdeal.Pieces Cert.KernelIdeal.Blocks

/-- The specification's result, as contents of the result array. -/
abbrev result (c : Dev nD) : Buf (Elt Ideal) ((c : Thread nD τ).loc main_v12) :=
  Cert.Spec.GK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## Sums over the edges, tile by tile -/

/-- A sum over `k * n` consecutive numbers, split into `k` runs of `n`. -/
theorem sum_range_mul_split (f : ℕ → EReal) (n : ℕ) : ∀ k : ℕ,
    ∑ j ∈ Finset.range (k * n), f j = ∑ a ∈ Finset.range k, ∑ b ∈ Finset.range n, f (a * n + b)
  | 0 => by simp
  | k + 1 => by
    rw [Nat.succ_mul, Finset.sum_range_add, Finset.sum_range_succ, sum_range_mul_split f n k]

section Tiles

open Cert.Spec

variable (x2 : S2xE.Idx → BitVec 32) (x3 : SExR.Idx → EReal) (x4 : SExA.Idx → EReal)

/-- Edge number `k`'s contribution to node `n`'s accumulator at lane `q` (zero past the last edge). -/
def term (n : Fin 10000) (q : Fin 128) (k : ℕ) : EReal :=
  if h : k < 160000 then maskv x2 n ⟨k, h⟩ * packed x3 x4 ⟨k, h⟩ q else 0

/-- Edge tile `a`'s contribution: its 1280 edges. -/
def tile (n : Fin 10000) (q : Fin 128) (a : ℕ) : EReal := ∑ e' : Fin 1280, term x2 x3 x4 n q (a * 1280 + e'.val)

/-- The accumulator of the specification is the sum of the 125 tiles' contributions. -/
theorem accK_eq_tiles (n : Fin 10000) (q : Fin 128) :
    accK x2 x3 x4 n q = ∑ a ∈ Finset.range 125, tile x2 x3 x4 n q a := by
  have h1 : accK x2 x3 x4 n q = ∑ e : Fin 160000, term x2 x3 x4 n q e.val := by
    unfold accK
    refine Finset.sum_congr rfl fun e _ => ?_
    unfold term
    rw [dif_pos e.isLt]
  rw [h1, Fin.sum_univ_eq_sum_range (fun k => term x2 x3 x4 n q k) 160000,
    show (160000 : ℕ) = 125 * 1280 from rfl, sum_range_mul_split]
  refine Finset.sum_congr rfl fun a _ => ?_
  unfold tile
  rw [Fin.sum_univ_eq_sum_range (fun b => term x2 x3 x4 n q (a * 1280 + b)) 1280]

end Tiles

/-! ## The accumulator after each point -/

/-- The accumulator update at point `t` of node tile `ni`, edge tile `ei`: what it held plus the tile's contribution. -/
theorem step (c : Dev nD) (t : Fin cfg0.N) (ni ei : ℕ) (hei : ei < 125) (ht : t.val = ni * 125 + ei)
    (xs0 : Vec Ideal S1000x128 .f32) (p : Fin 1000) (q : Fin 128) (hn : ni * 1000 + p.val < 10000) :
    k0_pay2 (F := Ideal) (grid0.coords t) (iblk m c 0 t) (iblk m c 1 t) xs0 (ix2 p q)
      = xs0 (ix2 p q) + tile (m ((c : Thread nD τ).loc main_arg2)) (m ((c : Thread nD τ).loc main_arg3)) (m ((c : Thread nD τ).loc main_arg4))
          ⟨ni * 1000 + p.val, hn⟩ q ei := by
  rw [pay2_apply]
  congr 1
  unfold tile
  refine Finset.sum_congr rfl fun e' _ => ?_
  have he' : e'.val < 1280 := e'.isLt
  have hmod : t.val % 125 = ei := by omega
  have hdiv : t.val / 125 = ni := by omega
  have hb' : ei * 1280 + e'.val < 160000 := by omega
  unfold term
  rw [dif_pos hb', blk0 m c t e' q, blk1 m c t e', V_v6_apply, V_v2_apply, coord0, hdiv]
  have hidx : edgeOf t e' = ⟨ei * 1280 + e'.val, hb'⟩ := Fin.ext (by dsimp only; rw [hmod])
  rw [hidx]
  unfold Cert.Spec.maskv Cert.Spec.hit
  by_cases hh : Cert.Spec.row (m ((c : Thread nD τ).loc main_arg2)) ⟨ei * 1280 + e'.val, hb'⟩ = BitVec.ofNat 32 (ni * 1000 + p.val)
  · rw [if_pos hh]
  · rw [if_neg hh]

/-- The accumulator after edge tile `ei` of node tile `ni`: the contributions of the tiles `0 … ei`, by induction on
    the edge tile (the first one resets to zero and adds, each later one adds to what the one before left). -/
theorem acc_eq (c : Dev nD) (ni : ℕ) (ei : ℕ) : ∀ (hei : ei < 125) (t : Fin cfg0.N) (ht : t.val = ni * 125 + ei)
    (p : Fin 1000) (q : Fin 128) (hn : ni * 1000 + p.val < 10000),
    (outsAt0 m c t.val t.isLt).2 (ix2 p q)
      = ∑ a ∈ Finset.range (ei + 1), tile (m ((c : Thread nD τ).loc main_arg2)) (m ((c : Thread nD τ).loc main_arg3)) (m ((c : Thread nD τ).loc main_arg4))
          ⟨ni * 1000 + p.val, hn⟩ q a := by
  induction ei with
  | zero =>
    intro hei t ht p q hn
    have h0 : t.val % 125 = 0 := by omega
    have h1 : ¬t.val % 125 = 124 := by omega
    rw [outsAt0_A m c t h0 h1]
    dsimp only
    rw [sout_A, step m c t ni 0 hei ht _ p q hn, pay1_apply, zero_add, Finset.sum_range_one]
  | succ ei ih =>
    intro hei t ht p q hn
    have hN : cfg0.N = 1250 := N_0
    have h0 : ¬t.val % 125 = 0 := by omega
    have hprev := ih (by omega) ⟨t.val - 1, by have := t.isLt; omega⟩ (by dsimp only; omega) p q hn
    dsimp only at hprev
    by_cases h1 : t.val % 125 = 124
    · rw [outsAt0_C m c t h0 h1]
      dsimp only
      rw [sout_C, step m c t ni (ei + 1) hei ht _ p q hn, hprev, Finset.sum_range_succ _ (ei + 1)]
    · rw [outsAt0_B m c t h0 h1]
      dsimp only
      rw [sout_B, step m c t ni (ei + 1) hei ht _ p q hn, hprev, Finset.sum_range_succ _ (ei + 1)]

/-! ## The block written back, and the array -/

/-- The part of the output buffer the write-back moves is all of it. -/
theorem cut8 (t : Fin cfg0.N) (X : Vec Ideal S1000x512 .f32) (p : Fin 1000) (d : Fin 512) :
    ((cfg0.win 8).cut (grid0.coords t) X : Vec Ideal S1000x512 .f32) (ix2 p d) = X (ix2 p d) := rfl

/-- At a last edge tile the output block is the epilogue of the accumulator as that point leaves it. -/
theorem out_last (c : Dev nD) (t : Fin cfg0.N) (h0 : ¬t.val % 125 = 0) (h124 : t.val % 125 = 124) :
    (outsAt0 m c t.val t.isLt).1
      = k0_pay3 (F := Ideal) (outsAt0 m c t.val t.isLt).2 (iblk m c 2 t) (iblk m c 3 t) (iblk m c 4 t) (iblk m c 5 t) (iblk m c 6 t) (iblk m c 7 t) := by
  rw [outsAt0_C m c t h0 h124]
  dsimp only
  rw [out_C, sout_C]

/-- The specification's result at a node and a feature, written out. -/
theorem GK_apply (x0 : Cert.Spec.SNxD.Idx → EReal) (x2 : Cert.Spec.S2xE.Idx → BitVec 32) (x3 : Cert.Spec.SExR.Idx → EReal)
    (x4 : Cert.Spec.SExA.Idx → EReal) (x5 : Cert.Spec.SKxD.Idx → EReal) (x6 : Cert.Spec.SD.Idx → EReal) (x7 : Cert.Spec.SDxD.Idx → EReal)
    (x8 : Cert.Spec.SD.Idx → EReal) (x9 : Cert.Spec.SDxD.Idx → EReal) (x10 : Cert.Spec.SD.Idx → EReal) (n : Fin 10000) (d : Fin 512) :
    Cert.Spec.GK x0 x2 x3 x4 x5 x6 x7 x8 x9 x10 (ix2 n d)
      = x0 (ix2 n d)
        + ((∑ j : Fin 512, max ((∑ i : Fin 512, (∑ l : Fin 128, Cert.Spec.accK x2 x3 x4 n l * Cert.Spec.wedge x5 x6 l i) * x7 (ix2 i j)) + x8 (ix1 j)) 0
            * x9 (ix2 j d)) + x10 (ix1 d)) := rfl

/-- At the last edge tile of a node tile the body leaves, in the output block, the specification's result on the tile's
    nodes: the accumulator is the specification's `accK` there, and the epilogue is the specification's `tail`. -/
theorem flushed_eq (c : Dev nD) (t : Fin cfg0.N) (hf : (cfg0.win 8).flush t = true) :
    (dats m 0 c).flushed 8 t = ((cfg0.win 8).blk t).view.read (Elt Ideal) (result m c) := by
  have hN : cfg0.N = 1250 := N_0
  have h124 : t.val % 125 = 124 := (flush0_8 t).mp hf
  have h0 : ¬t.val % 125 = 0 := by omega
  have hacc : ∀ (p : Fin 1000) (l : Fin 128), (outsAt0 m c t.val t.isLt).2 (ix2 p l)
      = Cert.Spec.accK (m ((c : Thread nD τ).loc main_arg2)) (m ((c : Thread nD τ).loc main_arg3)) (m ((c : Thread nD τ).loc main_arg4)) (nodeOf t p) l := by
    intro p l
    have hp : p.val < 1000 := p.isLt
    have ht : t.val = (t.val / 125) * 125 + 124 := by omega
    rw [acc_eq m c (t.val / 125) 124 (by omega) t ht p l (node_lt t p), accK_eq_tiles]
  show (cfg0.win 8).cut (grid0.coords t) ((dats m 0 c).after 8 t) = _
  rw [after0_8, out_last m c t h0 h124]
  refine funext fun (y : S1000x512.Idx) => ?_
  obtain ⟨p, d, rfl⟩ : ∃ (p : Fin 1000) (d : Fin 512), y = ix2 p d := ⟨y 0, y 1, eq_ix2 y⟩
  rw [cut8, pay3_apply, blk8]
  unfold result
  rw [GK_apply]
  simp only [hacc, blk2 m c t, blk3 m c t, blk4 m c t, blk5 m c t, blk6 m c t, blk7 m c t]
  rw [V_main_arg0 m c, V_main_arg7 m c, V_main_arg9 m c, V_v11_apply m c d]
  refine congrArg₂ (· + ·) rfl (congrArg₂ (· + ·) (Finset.sum_congr rfl fun j _ => ?_) rfl)
  rw [V_v10_apply m c j]
  refine congrArg₂ (· * ·) (congrArg₂ max (congrArg₂ (· + ·) (Finset.sum_congr rfl fun i _ => ?_) rfl) rfl) rfl
  refine congrArg₂ (· * ·) (Finset.sum_congr rfl fun l _ => ?_) rfl
  rw [V_v9_apply m c l i]

/-- The result array ends holding the specification's result: the ten last-edge-tile points' blocks cover it. -/
theorem final8 (c : Dev nD) : (dats m 0 c).arrAt 8 cfg0.N = result m c :=
  (dats m 0 c).arrAt_eq_of_cover 8 (result m c) (flushed_eq m c) (cover8 c)

end Cert.KernelIdeal.Final

end
-- ==== Proof.IdealValueRun.lean ====
/-
  The kernel's run read as a value: the result array ends at the specification's `GK` of the argument arrays, and the
  eleven argument arrays end unchanged.
-/
import proofs.«419056_j37220186587493_2_alg».proof.Proof.IdealFinal

set_option maxRecDepth 16384

noncomputable section

namespace Cert.KernelIdeal.ValueRun

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Cert.KernelIdeal.Final

variable (ρ : Dev nD → PrngReg)

theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 8).trans (final8 m c),
      ((h c).1 7).trans (((dats m 0 c).arrAt_in 7 rfl _).trans ((A_eq m c 7).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 3).trans (((dats m 0 c).arrAt_in 3 rfl _).trans ((A_eq m c 3).trans (V_main_arg7 m c))),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c))),
      ((h c).2 main_arg10 (Pipeline.mem_restRefs_of main_arg10 (by decide) (by decide))).trans (V_main_arg10 m c)⟩) (run_main m ρ)

end Cert.KernelIdeal.ValueRun

end
-- ==== Proof.RefValue.lean ====
/-
  The reference's result, read one host operation at a time, is the specification's `GR`: the scatter-add onto zeros is,
  per node, the sum of the messages of the edges whose index word is that node's number; the two `dot_general`s are the
  perceptron's sums.
-/
import proofs.«419056_j37220186587493_2_alg».proof.Proof.Gen.ReferenceIdeal.Read
import proofs.«419056_j37220186587493_2_alg».proof.Proof.Spec

noncomputable section

namespace Cert.RefValue

open Cert.ReferenceIdeal Cert.ReferenceIdeal.Gen Cert.ReferenceIdeal.Read
open Idealize.ShloMosaic Idealize.ShloMosaic.TcCoe Idealize.ShloMosaic.ValueIdx

/-! ## A 32-bit word read signed is a small natural exactly when it is that natural's word -/

theorem word_eq_iff_toInt (w : BitVec 32) (n : Nat) (hn : n < 10000) :
    w = BitVec.ofNat 32 n ↔ w.toInt = (n : Int) := by
  constructor
  · rintro rfl
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    have := w.isLt
    split at h <;> omega

/-! ## Where an update of the scatter lands

  The scatter has one index component, naming the node axis; the update's own second coordinate is the window
  coordinate on the feature axis. So update `(e, d')` starts at `(word e read signed, 0)` and is offset by `(0, d')`. -/

theorem sc_start0 (idx : IVec S160000x1 32) (e : Fin 160000) (d' : Fin 512) :
    scatter_S10000x512_S160000x1_S160000x512_1_0_0_1.start (ix2 e d') idx 0 = (idx (ix2 e (0 : Fin 1))).toInt := by
  unfold ScatterDims.start
  rw [dif_pos (show (0 : Fin S10000x512.rank) ∈ scatter_S10000x512_S160000x1_S160000x512_1_0_0_1.scatterDimsToOperandDims by decide)]
  refine congrArg (fun t => (idx t).toInt) (funext fun b => ?_)
  match b with
  | ⟨0, _⟩ => rfl
  | ⟨1, _⟩ => rfl

theorem sc_start1 (idx : IVec S160000x1 32) (e : Fin 160000) (d' : Fin 512) :
    scatter_S10000x512_S160000x1_S160000x512_1_0_0_1.start (ix2 e d') idx 1 = 0 := by
  unfold ScatterDims.start
  rw [dif_neg (show ¬(1 : Fin S10000x512.rank) ∈ scatter_S10000x512_S160000x1_S160000x512_1_0_0_1.scatterDimsToOperandDims by decide)]

theorem sc_window0 (e : Fin 160000) (d' : Fin 512) :
    scatter_S10000x512_S160000x1_S160000x512_1_0_0_1.window (ix2 e d') 0 = 0 := by
  unfold ScatterDims.window
  rw [dif_neg (show ¬(0 : Fin S10000x512.rank) ∈ scatter_S10000x512_S160000x1_S160000x512_1_0_0_1.sKept by decide)]

theorem sc_window1 (e : Fin 160000) (d' : Fin 512) :
    scatter_S10000x512_S160000x1_S160000x512_1_0_0_1.window (ix2 e d') 1 = d'.val := by
  unfold ScatterDims.window
  rw [dif_pos (show (1 : Fin S10000x512.rank) ∈ scatter_S10000x512_S160000x1_S160000x512_1_0_0_1.sKept by decide)]
  rfl

/-- Update `(e, d')` lands on element `(n, d)` exactly when its feature coordinate is `d` and edge `e`'s index word
    is node `n`'s number: the word is read signed and not clamped, and a node number is below `2 ^ 31`. -/
theorem sc_resultIdx_iff (idx : IVec S160000x1 32) (e : Fin 160000) (d' : Fin 512) (n : Fin 10000) (d : Fin 512) :
    scatter_S10000x512_S160000x1_S160000x512_1_0_0_1.resultIdx? (ix2 e d') idx = some (ix2 n d)
      ↔ (d' = d ∧ idx (ix2 e (0 : Fin 1)) = BitVec.ofNat 32 n.val) := by
  have hs0 := sc_start0 idx e d'
  have hs1 := sc_start1 idx e d'
  have hw0 := sc_window0 e d'
  have hw1 := sc_window1 e d'
  have hn := n.isLt
  have hd' := d'.isLt
  rw [word_eq_iff_toInt _ _ hn]
  unfold ScatterDims.resultIdx?
  split
  · next h =>
    rw [Option.some.injEq]
    constructor
    · intro hf
      have e0 : (scatter_S10000x512_S160000x1_S160000x512_1_0_0_1.start (ix2 e d') idx 0
          + scatter_S10000x512_S160000x1_S160000x512_1_0_0_1.window (ix2 e d') 0).toNat = n.val :=
        congrArg (fun f : S10000x512.Idx => (f 0).val) hf
      have e1 : (scatter_S10000x512_S160000x1_S160000x512_1_0_0_1.start (ix2 e d') idx 1
          + scatter_S10000x512_S160000x1_S160000x512_1_0_0_1.window (ix2 e d') 1).toNat = d.val :=
        congrArg (fun f : S10000x512.Idx => (f 1).val) hf
      have h0 := (h 0).1
      rw [hs0, hw0] at e0 h0
      rw [hs1, hw1] at e1
      exact ⟨Fin.ext (by omega), by omega⟩
    · rintro ⟨rfl, hw⟩
      funext a
      match a with
      | ⟨0, _⟩ =>
        apply Fin.ext
        show (scatter_S10000x512_S160000x1_S160000x512_1_0_0_1.start (ix2 e d') idx 0
          + scatter_S10000x512_S160000x1_S160000x512_1_0_0_1.window (ix2 e d') 0).toNat = n.val
        rw [hs0, hw0, hw]; omega
      | ⟨1, _⟩ =>
        apply Fin.ext
        show (scatter_S10000x512_S160000x1_S160000x512_1_0_0_1.start (ix2 e d') idx 1
          + scatter_S10000x512_S160000x1_S160000x512_1_0_0_1.window (ix2 e d') 1).toNat = d'.val
        rw [hs1, hw1]; omega
  · next h =>
    constructor
    · intro hf; cases hf
    · rintro ⟨rfl, hw⟩
      exfalso
      apply h
      intro a
      match a with
      | ⟨0, _⟩ =>
        show 0 ≤ scatter_S10000x512_S160000x1_S160000x512_1_0_0_1.start (ix2 e d') idx 0
            + scatter_S10000x512_S160000x1_S160000x512_1_0_0_1.window (ix2 e d') 0
          ∧ scatter_S10000x512_S160000x1_S160000x512_1_0_0_1.start (ix2 e d') idx 0
            + scatter_S10000x512_S160000x1_S160000x512_1_0_0_1.window (ix2 e d') 0 < ((10000 : Nat) : Int)
        rw [hs0, hw0, hw]; omega
      | ⟨1, _⟩ =>
        show 0 ≤ scatter_S10000x512_S160000x1_S160000x512_1_0_0_1.start (ix2 e d') idx 1
            + scatter_S10000x512_S160000x1_S160000x512_1_0_0_1.window (ix2 e d') 1
          ∧ scatter_S10000x512_S160000x1_S160000x512_1_0_0_1.start (ix2 e d') idx 1
            + scatter_S10000x512_S160000x1_S160000x512_1_0_0_1.window (ix2 e d') 1 < ((512 : Nat) : Int)
        rw [hs1, hw1]; omega

/-! ## The updates that land on one element, summed, are a sum over edges -/

theorem sum_landing {q : S160000x512.Idx → Prop} [DecidablePred q] {p : Fin 160000 → Prop} [DecidablePred p] (d : Fin 512)
    (hq : ∀ (e : Fin 160000) (d' : Fin 512), q (ix2 e d') ↔ (d' = d ∧ p e)) (upd : S160000x512.Idx → EReal) :
    ∑ j ∈ Finset.univ.filter q, upd j = ∑ e ∈ Finset.univ.filter p, upd (ix2 e d) := by
  refine Finset.sum_nbij' (fun j : S160000x512.Idx => (j 0 : Fin 160000)) (fun e : Fin 160000 => (ix2 e d : S160000x512.Idx)) ?_ ?_ ?_ ?_ ?_
  · intro j hj
    obtain ⟨e, d', rfl⟩ : ∃ (e : Fin 160000) (d' : Fin 512), j = ix2 e d' := ⟨j 0, j 1, eq_ix2 j⟩
    rw [Finset.mem_filter] at hj ⊢
    exact ⟨Finset.mem_univ _, ((hq e d').1 hj.2).2⟩
  · intro e he
    rw [Finset.mem_filter] at he ⊢
    exact ⟨Finset.mem_univ _, (hq e d).2 ⟨rfl, he.2⟩⟩
  · intro j hj
    obtain ⟨e, d', rfl⟩ : ∃ (e : Fin 160000) (d' : Fin 512), j = ix2 e d' := ⟨j 0, j 1, eq_ix2 j⟩
    rw [Finset.mem_filter] at hj
    obtain ⟨rfl, _⟩ := (hq e d').1 hj.2
    rfl
  · intro e _
    rfl
  · intro j hj
    obtain ⟨e, d', rfl⟩ : ∃ (e : Fin 160000) (d' : Fin 512), j = ix2 e d' := ⟨j 0, j 1, eq_ix2 j⟩
    rw [Finset.mem_filter] at hj
    obtain ⟨rfl, _⟩ := (hq e d').1 hj.2
    rfl

/-- The scatter-add at element `(n, d)`: the operand's element plus the updates `(e, d)` of the edges `e` whose index word
    is `n`'s number. -/
theorem scatterAdd_at (x : FVec Ideal S10000x512 .f32) (idx : IVec S160000x1 32) (upd : FVec Ideal S160000x512 .f32)
    {p : Fin 160000 → Prop} [DecidablePred p] (n : Fin 10000) (d : Fin 512)
    (hp : ∀ e : Fin 160000, idx (ix2 e (0 : Fin 1)) = BitVec.ofNat 32 n.val ↔ p e) :
    Host.scatterAdd (F := Ideal) scatter_S10000x512_S160000x1_S160000x512_1_0_0_1 x idx upd (ix2 n d)
      = x (ix2 n d) + ∑ e ∈ Finset.univ.filter p, upd (ix2 e d) := by
  show x (ix2 n d) + _ = _
  refine congrArg (fun t => x (ix2 n d) + t) ?_
  exact sum_landing d (fun e d' => (sc_resultIdx_iff idx e d' n d).trans (and_congr Iff.rfl (hp e))) upd

/-! ## The generated stages' composed index functions, at an index given by its coordinates -/

theorem lidx_v3 (e : Fin 160000) (d : Fin 512) (k : Fin 80) : lidx_main_v3 (ix2 e d) k = ix2 e k :=
  funext fun a => by match a with | ⟨0, _⟩ => rfl | ⟨1, _⟩ => rfl
theorem ridx_v3 (e : Fin 160000) (d : Fin 512) (k : Fin 80) : ridx_main_v3 (ix2 e d) k = ix2 k d :=
  funext fun a => by match a with | ⟨0, _⟩ => rfl | ⟨1, _⟩ => rfl
theorem lidx_v10 (n : Fin 10000) (j k : Fin 512) : lidx_main_v10 (ix2 n j) k = ix2 n k :=
  funext fun a => by match a with | ⟨0, _⟩ => rfl | ⟨1, _⟩ => rfl
theorem ridx_v10 (n : Fin 10000) (j k : Fin 512) : ridx_main_v10 (ix2 n j) k = ix2 k j :=
  funext fun a => by match a with | ⟨0, _⟩ => rfl | ⟨1, _⟩ => rfl
theorem lidx_v15 (n : Fin 10000) (d k : Fin 512) : lidx_main_v15 (ix2 n d) k = ix2 n k :=
  funext fun a => by match a with | ⟨0, _⟩ => rfl | ⟨1, _⟩ => rfl
theorem ridx_v15 (n : Fin 10000) (d k : Fin 512) : ridx_main_v15 (ix2 n d) k = ix2 k d :=
  funext fun a => by match a with | ⟨0, _⟩ => rfl | ⟨1, _⟩ => rfl
/-- A bias broadcast along the rows reads the bias at the column. -/
theorem idx_bias160000 (e : Fin 160000) (d : Fin 512) : idx_main_v4 (idx_main_v5 (ix2 e d)) = ix1 d :=
  funext fun a => by match a with | ⟨0, _⟩ => rfl
theorem idx_bias_v12 (n : Fin 10000) (d : Fin 512) : idx_main_v11 (idx_main_v12 (ix2 n d)) = ix1 d :=
  funext fun a => by match a with | ⟨0, _⟩ => rfl
theorem idx_bias_v17 (n : Fin 10000) (d : Fin 512) : idx_main_v16 (idx_main_v17 (ix2 n d)) = ix1 d :=
  funext fun a => by match a with | ⟨0, _⟩ => rfl
/-- The column of index words reads row 0 of the edge array at the edge. -/
theorem idx_word (e : Fin 160000) : idx_main_v0 (idx_main_v1 (idx_main_v8 (ix2 e (0 : Fin 1)))) = ix2 (0 : Fin 2) e :=
  funext fun a => Fin.ext (by
    match a with
    | ⟨0, _⟩ => rfl
    | ⟨1, _⟩ => exact Nat.mod_eq_of_lt e.isLt)

section Stages

variable (x0 : FVec Ideal S10000x512 .f32) (x2 : IVec S2x160000 32) (x3 : FVec Ideal S160000x64 .f32) (x4 : FVec Ideal S160000x16 .f32)
    (x5 : FVec Ideal S80x512 .f32) (x6 : FVec Ideal S512 .f32) (x7 : FVec Ideal S512x512 .f32) (x8 : FVec Ideal S512 .f32)
    (x9 : FVec Ideal S512x512 .f32) (x10 : FVec Ideal S512 .f32)

/-- The scatter's index column holds each edge's destination word. -/
theorem v8_at (e : Fin 160000) : val_main_v8 (F := Ideal) x2 (ix2 e (0 : Fin 1)) = Cert.Spec.row x2 e := by
  rw [val_main_v8_apply, val_main_v1_apply, val_main_v0_apply, idx_word]
  rfl

/-- The joined features: radial below 64, angular from 64 on. -/
theorem v2_at (e : Fin 160000) (k : Fin 80) : val_main_v2 (F := Ideal) x3 x4 (ix2 e k) = Cert.Spec.ef x3 x4 e k := by
  unfold val_main_v2 Cert.Spec.ef
  split
  · next h =>
    exact concatenate_pair_apply_left (1 : Fin S160000x80.rank) x3 x4 concatenates_S160000x64_S160000x16_S160000x80_d1 (ix2 e k) rfl
      (ix2 e (⟨k.val, h⟩ : Fin 64)) (fun b => by match b with | ⟨0, _⟩ => rfl | ⟨1, _⟩ => rfl)
  · next h =>
    exact concatenate_pair_apply_right (1 : Fin S160000x80.rank) x3 x4 concatenates_S160000x64_S160000x16_S160000x80_d1 (ix2 e k) rfl rfl
      (ix2 e (⟨k.val - 64, by have := k.isLt; omega⟩ : Fin 16))
      (fun b hb => by match b, hb with | ⟨0, _⟩, _ => rfl | ⟨1, _⟩, hb => exact absurd rfl hb)
      (by show (k.val - 64) + 64 = k.val; omega)

/-- The projected message of an edge. -/
theorem v6_at (e : Fin 160000) (d : Fin 512) :
    val_main_v6 (F := Ideal) x3 x4 x5 x6 (ix2 e d) = Cert.Spec.msg x3 x4 x5 x6 e d := by
  rw [val_main_v6_apply, val_main_v3_apply, val_main_v5_apply, val_main_v4_apply, idx_bias160000]
  unfold Cert.Spec.msg
  refine congrArg (fun t => t + x6 (ix1 d)) (Finset.sum_congr rfl fun k _ => ?_)
  rw [lidx_v3, ridx_v3, v2_at]

/-- The scatter's operand is zero everywhere. -/
theorem v7_at (n : Fin 10000) (d : Fin 512) : val_main_v7 (F := Ideal) (ix2 n d) = 0 := by
  rw [val_main_v7_apply, val_main_cst_apply]
  exact Ideal.ofBits_zero_f32

/-- The rectifier's zero. -/
theorem call0_v0_at (n : Fin 10000) (d : Fin 512) : val_main_call0_v0 (F := Ideal) (ix2 n d) = 0 := by
  rw [val_main_call0_v0_apply, val_main_call0_cst_apply]
  exact Ideal.ofBits_zero_f32

/-- The scatter-add onto zeros is the reference's aggregate. -/
theorem v9_at (n : Fin 10000) (d : Fin 512) :
    val_main_v9 (F := Ideal) x2 x3 x4 x5 x6 (ix2 n d) = Cert.Spec.aggR x2 x3 x4 x5 x6 n d := by
  unfold val_main_v9 Cert.Spec.aggR
  rw [scatterAdd_at (val_main_v7 (F := Ideal)) (val_main_v8 (F := Ideal) x2) (val_main_v6 (F := Ideal) x3 x4 x5 x6)
    (p := fun e => Cert.Spec.hit x2 n e) n d (fun e => by rw [v8_at]; rfl), v7_at]
  exact congrArg (fun t => (0 : EReal) + t) (Finset.sum_congr rfl fun e _ => v6_at x3 x4 x5 x6 e d)

/-- The perceptron's first layer before the rectifier. -/
theorem v13_at (n : Fin 10000) (j : Fin 512) :
    val_main_v13 (F := Ideal) x2 x3 x4 x5 x6 x7 x8 (ix2 n j)
      = (∑ i : Fin 512, Cert.Spec.aggR x2 x3 x4 x5 x6 n i * x7 (ix2 i j)) + x8 (ix1 j) := by
  rw [val_main_v13_apply, val_main_v10_apply, val_main_v12_apply, val_main_v11_apply, idx_bias_v12]
  refine congrArg (fun t => t + x8 (ix1 j)) (Finset.sum_congr rfl fun i _ => ?_)
  rw [lidx_v10, ridx_v10, v9_at]

/-- The perceptron's second layer. -/
theorem v18_at (n : Fin 10000) (d : Fin 512) :
    val_main_v18 (F := Ideal) x2 x3 x4 x5 x6 x7 x8 x9 x10 (ix2 n d)
      = (∑ j : Fin 512, max ((∑ i : Fin 512, Cert.Spec.aggR x2 x3 x4 x5 x6 n i * x7 (ix2 i j)) + x8 (ix1 j)) 0 * x9 (ix2 j d))
        + x10 (ix1 d) := by
  rw [val_main_v18_apply, val_main_v15_apply, val_main_v17_apply, val_main_v16_apply, idx_bias_v17]
  refine congrArg (fun t => t + x10 (ix1 d)) (Finset.sum_congr rfl fun j _ => ?_)
  rw [lidx_v15, ridx_v15, val_main_v14_apply, v13_at, call0_v0_at]
  rfl

end Stages

theorem ref_eq (x0 : FVec Ideal S10000x512 .f32) (x2 : IVec S2x160000 32) (x3 : FVec Ideal S160000x64 .f32) (x4 : FVec Ideal S160000x16 .f32)
    (x5 : FVec Ideal S80x512 .f32) (x6 : FVec Ideal S512 .f32) (x7 : FVec Ideal S512x512 .f32) (x8 : FVec Ideal S512 .f32)
    (x9 : FVec Ideal S512x512 .f32) (x10 : FVec Ideal S512 .f32) :
    Cert.ReferenceIdeal.Read.val_main_v19 (F := Ideal) x0 x2 x3 x4 x5 x6 x7 x8 x9 x10
      = Cert.Spec.GR x0 x2 x3 x4 x5 x6 x7 x8 x9 x10 := by
  funext j
  obtain ⟨n, d, rfl⟩ : ∃ (n : Fin 10000) (d : Fin 512), j = ix2 n d := ⟨j 0, j 1, eq_ix2 j⟩
  rw [val_main_v19_apply, v18_at]
  rfl

end Cert.RefValue

end
-- ==== Proof.Algebra.lean ====
/-
  The one law that joins the two sides: over the reals, summing a node's raw edge features first and projecting the sum
  afterwards gives the sum of the projected messages.
-/
import proofs.«419056_j37220186587493_2_alg».proof.Proof.Spec
import Mathlib.Data.EReal.Basic
import Mathlib.Algebra.BigOperators.Fin

noncomputable section

namespace Cert.Spec

open Idealize.ShloMosaic Idealize.ShloMosaic.ValueIdx

/-- An array all of whose entries are real numbers. -/
def Real' {S : Shape} (x : S.Idx → EReal) : Prop := ∀ i, ∃ r : ℝ, x i = (r : EReal)

/-! ## Two general facts -/

/-- The embedding of the reals into the extended reals commutes with finite sums. -/
theorem coe_finset_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- A sum over 128 lanes is the sum over the first 80, plus lane 80, plus the sum over the last 47. -/
theorem sum_lanes {M : Type} [AddCommMonoid M] (f : Fin 128 → M) :
    ∑ l : Fin 128, f l
      = (∑ k : Fin 80, f ⟨k.val, by have := k.isLt; omega⟩)
        + (f ⟨80, by omega⟩ + ∑ j : Fin 47, f ⟨81 + j.val, by have := j.isLt; omega⟩) := by
  have h1 : ∑ l : Fin 128, f l
      = (∑ k : Fin 80, f (Fin.castAdd 48 k)) + ∑ i : Fin 48, f (Fin.natAdd 80 i) :=
    Fin.sum_univ_add (a := 80) (b := 48) f
  have h2 : ∑ i : Fin 48, f (Fin.natAdd 80 i)
      = (∑ u : Fin 1, f (Fin.natAdd 80 (Fin.castAdd 47 u))) + ∑ j : Fin 47, f (Fin.natAdd 80 (Fin.natAdd 1 j)) :=
    Fin.sum_univ_add (a := 1) (b := 47) (fun i => f (Fin.natAdd 80 i))
  rw [h1, h2, Fin.sum_univ_one]
  rfl

/-! ## The same arrays with real entries -/

section RealSide

variable (x2 : S2xE.Idx → BitVec 32) (r3 : SExR.Idx → ℝ) (r4 : SExA.Idx → ℝ) (r5 : SKxD.Idx → ℝ) (r6 : SD.Idx → ℝ)

/-- The 80 features of edge `e` as reals. -/
def efr (e : Fin 160000) (k : Fin 80) : ℝ :=
  if h : k.val < 64 then r3 (ix2 e (⟨k.val, h⟩ : Fin 64)) else r4 (ix2 e (⟨k.val - 64, by have := k.isLt; omega⟩ : Fin 16))

/-- The mask entry as a real. -/
def maskr (n : Fin 10000) (e : Fin 160000) : ℝ := if hit x2 n e then 1 else 0

theorem ef_coe (e : Fin 160000) (k : Fin 80) :
    ef (fun i => ((r3 i : ℝ) : EReal)) (fun i => ((r4 i : ℝ) : EReal)) e k = ((efr r3 r4 e k : ℝ) : EReal) := by
  unfold ef efr
  split <;> rfl

theorem maskv_coe (n : Fin 10000) (e : Fin 160000) : maskv x2 n e = ((maskr x2 n e : ℝ) : EReal) := by
  unfold maskv maskr
  split
  · exact EReal.coe_one.symm
  · exact EReal.coe_zero.symm

end RealSide

/-! ## The packed features and the stacked weights, lane by lane -/

section Lanes

variable (x3 : SExR.Idx → EReal) (x4 : SExA.Idx → EReal) (x5 : SKxD.Idx → EReal) (x6 : SD.Idx → EReal)

theorem packed_lo (e : Fin 160000) (k : Fin 80) :
    packed x3 x4 e ⟨k.val, by have := k.isLt; omega⟩ = ef x3 x4 e k := by
  unfold packed
  rw [dif_pos (show (⟨k.val, _⟩ : Fin 128).val < 80 from k.isLt)]

theorem packed_mid (e : Fin 160000) : packed x3 x4 e ⟨80, by omega⟩ = 1 := by
  unfold packed
  rw [dif_neg (show ¬ (⟨80, _⟩ : Fin 128).val < 80 by simp), if_pos rfl]

theorem packed_hi (e : Fin 160000) (j : Fin 47) :
    packed x3 x4 e ⟨81 + j.val, by have := j.isLt; omega⟩ = 0 := by
  unfold packed
  rw [dif_neg (show ¬ (⟨81 + j.val, _⟩ : Fin 128).val < 80 by simp only []; omega),
    if_neg (show ¬ (⟨81 + j.val, _⟩ : Fin 128).val = 80 by simp only []; omega)]

theorem wedge_lo (k : Fin 80) (d : Fin 512) :
    wedge x5 x6 ⟨k.val, by have := k.isLt; omega⟩ d = x5 (ix2 k d) := by
  unfold wedge
  rw [dif_pos (show (⟨k.val, _⟩ : Fin 128).val < 80 from k.isLt)]

theorem wedge_mid (d : Fin 512) : wedge x5 x6 ⟨80, by omega⟩ d = x6 (ix1 d) := by
  unfold wedge
  rw [dif_neg (show ¬ (⟨80, _⟩ : Fin 128).val < 80 by simp), if_pos rfl]

theorem wedge_hi (j : Fin 47) (d : Fin 512) :
    wedge x5 x6 ⟨81 + j.val, by have := j.isLt; omega⟩ d = 0 := by
  unfold wedge
  rw [dif_neg (show ¬ (⟨81 + j.val, _⟩ : Fin 128).val < 80 by simp only []; omega),
    if_neg (show ¬ (⟨81 + j.val, _⟩ : Fin 128).val = 80 by simp only []; omega)]

end Lanes

theorem aggK_eq_aggR (x2 : S2xE.Idx → BitVec 32) (x3 : SExR.Idx → EReal) (x4 : SExA.Idx → EReal) (x5 : SKxD.Idx → EReal) (x6 : SD.Idx → EReal)
    (h3 : Real' x3) (h4 : Real' x4) (h5 : Real' x5) (h6 : Real' x6) :
    aggK x2 x3 x4 x5 x6 = aggR x2 x3 x4 x5 x6 := by
  classical
  choose r3 hr3 using h3
  choose r4 hr4 using h4
  choose r5 hr5 using h5
  choose r6 hr6 using h6
  obtain rfl : x3 = fun i => ((r3 i : ℝ) : EReal) := funext hr3
  obtain rfl : x4 = fun i => ((r4 i : ℝ) : EReal) := funext hr4
  obtain rfl : x5 = fun i => ((r5 i : ℝ) : EReal) := funext hr5
  obtain rfl : x6 = fun i => ((r6 i : ℝ) : EReal) := funext hr6
  funext n d
  -- Over the reals: sum the features first and project afterwards, or project each edge and sum.
  have hreal :
      (∑ k : Fin 80, (∑ e : Fin 160000, maskr x2 n e * efr r3 r4 e k) * r5 (ix2 k d))
          + (∑ e : Fin 160000, maskr x2 n e) * r6 (ix1 d)
        = ∑ e ∈ Finset.univ.filter (fun e => hit x2 n e),
            ((∑ k : Fin 80, efr r3 r4 e k * r5 (ix2 k d)) + r6 (ix1 d)) := by
    rw [Finset.sum_filter]
    simp only [Finset.sum_mul]
    rw [Finset.sum_comm, ← Finset.sum_add_distrib]
    refine Finset.sum_congr rfl (fun e _ => ?_)
    by_cases h : hit x2 n e <;> simp [maskr, h]
  -- The kernel's aggregate is the image of the left-hand real number.
  have hK : aggK x2 (fun i => ((r3 i : ℝ) : EReal)) (fun i => ((r4 i : ℝ) : EReal))
        (fun i => ((r5 i : ℝ) : EReal)) (fun i => ((r6 i : ℝ) : EReal)) n d
      = (((∑ k : Fin 80, (∑ e : Fin 160000, maskr x2 n e * efr r3 r4 e k) * r5 (ix2 k d))
          + (∑ e : Fin 160000, maskr x2 n e) * r6 (ix1 d) : ℝ) : EReal) := by
    unfold aggK
    rw [sum_lanes]
    -- lanes below 80: the features against the edge weights
    have lo : ∀ k : Fin 80,
        accK x2 (fun i => ((r3 i : ℝ) : EReal)) (fun i => ((r4 i : ℝ) : EReal)) n ⟨k.val, by have := k.isLt; omega⟩
            * wedge (fun i => ((r5 i : ℝ) : EReal)) (fun i => ((r6 i : ℝ) : EReal)) ⟨k.val, by have := k.isLt; omega⟩ d
          = (((∑ e : Fin 160000, maskr x2 n e * efr r3 r4 e k) * r5 (ix2 k d) : ℝ) : EReal) := by
      intro k
      have hs : ∀ e : Fin 160000,
          maskv x2 n e * packed (fun i => ((r3 i : ℝ) : EReal)) (fun i => ((r4 i : ℝ) : EReal)) e ⟨k.val, by have := k.isLt; omega⟩
            = ((maskr x2 n e * efr r3 r4 e k : ℝ) : EReal) := by
        intro e
        rw [packed_lo, ef_coe, maskv_coe, EReal.coe_mul]
      unfold accK
      rw [wedge_lo, Finset.sum_congr rfl (fun e _ => hs e), ← coe_finset_sum, ← EReal.coe_mul]
    -- lane 80: the ones against the bias
    have mid :
        accK x2 (fun i => ((r3 i : ℝ) : EReal)) (fun i => ((r4 i : ℝ) : EReal)) n ⟨80, by omega⟩
            * wedge (fun i => ((r5 i : ℝ) : EReal)) (fun i => ((r6 i : ℝ) : EReal)) ⟨80, by omega⟩ d
          = (((∑ e : Fin 160000, maskr x2 n e) * r6 (ix1 d) : ℝ) : EReal) := by
      have hs : ∀ e : Fin 160000,
          maskv x2 n e * packed (fun i => ((r3 i : ℝ) : EReal)) (fun i => ((r4 i : ℝ) : EReal)) e ⟨80, by omega⟩
            = ((maskr x2 n e : ℝ) : EReal) := by
        intro e
        rw [packed_mid, maskv_coe, mul_one]
      unfold accK
      rw [wedge_mid, Finset.sum_congr rfl (fun e _ => hs e), ← coe_finset_sum, ← EReal.coe_mul]
    -- lanes above 80: zero against zero
    have hi : ∀ j : Fin 47,
        accK x2 (fun i => ((r3 i : ℝ) : EReal)) (fun i => ((r4 i : ℝ) : EReal)) n ⟨81 + j.val, by have := j.isLt; omega⟩
            * wedge (fun i => ((r5 i : ℝ) : EReal)) (fun i => ((r6 i : ℝ) : EReal)) ⟨81 + j.val, by have := j.isLt; omega⟩ d
          = 0 := by
      intro j
      rw [wedge_hi, mul_zero]
    rw [Finset.sum_congr rfl (fun k _ => lo k), mid, Finset.sum_eq_zero (fun j _ => hi j), add_zero,
      ← coe_finset_sum, ← EReal.coe_add]
  -- The reference's aggregate is the image of the right-hand real number.
  have hR : aggR x2 (fun i => ((r3 i : ℝ) : EReal)) (fun i => ((r4 i : ℝ) : EReal))
        (fun i => ((r5 i : ℝ) : EReal)) (fun i => ((r6 i : ℝ) : EReal)) n d
      = ((∑ e ∈ Finset.univ.filter (fun e => hit x2 n e),
            ((∑ k : Fin 80, efr r3 r4 e k * r5 (ix2 k d)) + r6 (ix1 d)) : ℝ) : EReal) := by
    unfold aggR
    rw [zero_add, coe_finset_sum]
    refine Finset.sum_congr rfl (fun e _ => ?_)
    have hs : ∀ k : Fin 80,
        ef (fun i => ((r3 i : ℝ) : EReal)) (fun i => ((r4 i : ℝ) : EReal)) e k * ((r5 (ix2 k d) : ℝ) : EReal)
          = ((efr r3 r4 e k * r5 (ix2 k d) : ℝ) : EReal) := by
      intro k
      rw [ef_coe, EReal.coe_mul]
    unfold msg
    rw [Finset.sum_congr rfl (fun k _ => hs k), ← coe_finset_sum, ← EReal.coe_add]
  rw [hK, hR, hreal]

theorem GK_eq_GR (x0 : SNxD.Idx → EReal) (x2 : S2xE.Idx → BitVec 32) (x3 : SExR.Idx → EReal) (x4 : SExA.Idx → EReal)
    (x5 : SKxD.Idx → EReal) (x6 : SD.Idx → EReal) (x7 : SDxD.Idx → EReal) (x8 : SD.Idx → EReal) (x9 : SDxD.Idx → EReal) (x10 : SD.Idx → EReal)
    (h3 : Real' x3) (h4 : Real' x4) (h5 : Real' x5) (h6 : Real' x6) :
    GK x0 x2 x3 x4 x5 x6 x7 x8 x9 x10 = GR x0 x2 x3 x4 x5 x6 x7 x8 x9 x10 := by
  unfold GK GR; rw [aggK_eq_aggR x2 x3 x4 x5 x6 h3 h4 h5 h6]

end Cert.Spec

end
-- ==== Proof.Finite.lean ====
/-
  From the precondition to the reals: every entry of the edge features, the edge weights and the edge bias is a real
  number (neither infinity), which is what the algebra needs.

  The precondition is a conjunction, one conjunct per floating-point argument, each saying "every entry has absolute
  value below +∞".  Over the extended reals the two infinities are exactly the values whose absolute value is not below
  the top element, so each conjunct says that its array is real-valued.  One lemma (`real_of_all`) reads a conjunct
  back for an array of any shape; the theorem takes the four conjuncts it needs out of the conjunction.
-/
import proofs.«419056_j37220186587493_2_alg».proof.Defs
import proofs.«419056_j37220186587493_2_alg».proof.Proof.Algebra
import Idealize.ShloMosaic.Lib.ReduceAll

noncomputable section

namespace Cert.Finite

open Cert.KernelIdeal Idealize.ShloMosaic Idealize.ShloMosaic.TcCoe Idealize.SL.Sem

variable [hF : Cert.Pre_finite_inputs.Facts]

/-- The single-precision pattern of +∞ denotes the top element of the extended reals. -/
theorem inf_eq_top : Ideal.ofBits .f32 0x7F800000#32 = (⊤ : EReal) := by simp [Ideal.ofBits, Ideal.ieee]

/-- An extended real whose absolute value `max x (-x)` lies below the top element is a real: the absolute value of
    either infinity is the top element itself. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One conjunct read back, for an array of any shape: if "every entry of `|x|` is below +∞", reduced by `and` over all
    axes, came out one, then every entry of `x` is a real. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (j : Cert.Pre_finite_inputs.S_.Idx)
    (e : Host.reduce IntOp.andi
          (cmpf .olt (Host.absf x) (broadcastInDim S ![] hb (constant Cert.Pre_finite_inputs.S_ .f32 0x7F800000#32)))
          (constantI Cert.Pre_finite_inputs.S_ 1 1#1) hr h0 j = 1#1) :
    Cert.Spec.Real' (S := S) x := by
  intro i
  -- the scalar shape has one index, so the reduction is over every entry
  haveI : Subsingleton Cert.Pre_finite_inputs.S_.Idx := ⟨fun _ _ => funext fun d => d.elim0⟩
  -- hence the entry's own test is one
  have hi := Host.reduce_andi_all _ _ hr h0 j e i
  -- which, entry by entry, is the comparison `|x i| < +∞` in the extended reals
  have hc : Ideal.cmp .olt (max (x i) (-(x i))) (Ideal.ofBits .f32 0x7F800000#32) = 1#1 := hi
  rw [inf_eq_top] at hc
  have hlt : max (x i) (-(x i)) < ⊤ := by
    by_contra hn
    simp [Ideal.cmp, hn] at hc
  exact real_of_abs_lt_top (x i) hlt

theorem real_of_pre (m : (ℓ : Loc nD τ sig) → Buf (Elt Ideal) ℓ) (h : Cert.Pre_KernelIdeal m) (c : Dev nD) :
    Cert.Spec.Real' (S := S160000x64) (m ((c.tc : Thread nD τ).loc main_arg3)) ∧ Cert.Spec.Real' (S := S160000x16) (m ((c.tc : Thread nD τ).loc main_arg4))
      ∧ Cert.Spec.Real' (S := S80x512) (m ((c.tc : Thread nD τ).loc main_arg5)) ∧ Cert.Spec.Real' (S := S512) (m ((c.tc : Thread nD τ).loc main_arg6)) := by
  -- the precondition on device `c`, at the scalar result's one index
  have h0 := congrFun (h c) ValueIdx.ix0
  -- the predicate is a chain of `and`s of the arguments' conjuncts: bring it into view
  dsimp only [Cert.Pre_finite_inputs.fn, Cert.Pre_finite_inputs.fn_part1, Cert.Pre_finite_inputs.fn_part2, andi] at h0
  -- peel the conjuncts off from the last argument backwards, keeping those of arguments 6, 5, 4 and 3
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨-, h3⟩ := IntOp.andi_eq_one.1 h0
  exact ⟨real_of_all _ _ _ _ _ h3, real_of_all _ _ _ _ _ h4, real_of_all _ _ _ _ _ h5, real_of_all _ _ _ _ _ h6⟩

end Cert.Finite

end
-- ==== Proof.lean ====
/-
  The certificate.  The kernel sums each node's raw edge features through a 0/1 mask on the matrix unit, tile by tile,
  and projects the sum once per node tile; the reference projects every edge and scatter-adds the messages.  Over the
  reals the two are one function of the arguments (multiplication distributes over the sums), and the precondition makes
  every float input real.  Both programs' frames are proved from the pipeline's launch with every output named; the
  reference's frame is its run with the result dropped.
-/
import proofs.«419056_j37220186587493_2_alg».proof.Defs
import proofs.«419056_j37220186587493_2_alg».proof.Proof.Gen.Kernel
import proofs.«419056_j37220186587493_2_alg».proof.Proof.Gen.KernelIdeal
import proofs.«419056_j37220186587493_2_alg».proof.Proof.Gen.ReferenceIdeal
import proofs.«419056_j37220186587493_2_alg».proof.Proof.Gen.Pre_finite_inputs
import proofs.«419056_j37220186587493_2_alg».proof.Proof.Gen.ReferenceIdeal.Run
import proofs.«419056_j37220186587493_2_alg».proof.Proof.Gen.ReferenceIdeal.Read
import proofs.«419056_j37220186587493_2_alg».proof.Proof.BitsFrame
import proofs.«419056_j37220186587493_2_alg».proof.Proof.IdealFrame
import proofs.«419056_j37220186587493_2_alg».proof.Proof.IdealValueRun
import proofs.«419056_j37220186587493_2_alg».proof.Proof.RefValue
import proofs.«419056_j37220186587493_2_alg».proof.Proof.Algebra
import proofs.«419056_j37220186587493_2_alg».proof.Proof.Finite
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- At `Ideal` the kernel's result array ends at `GK` of its arguments and the reference's at `GR` of arguments that
    agree; the precondition makes the edge features, weights and bias real, so `GK = GR`. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Final.result m c, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨h3, h4, h5, h6⟩ := Cert.Finite.real_of_pre (hF := Cert.Pre_finite_inputs.Gen.facts) m hpre c
  rw [Cert.ReferenceIdeal.Read.val_main_v19_eq, Cert.RefValue.ref_eq]
  obtain ⟨a0, a1, a2, a3, a4, a5, a6, a7, a8, a9, a10⟩ := hagree c
  rw [a0, a2, a3, a4, a5, a6, a7, a8, a9, a10]
  exact (Cert.Spec.GK_eq_GR _ _ _ _ _ _ _ _ _ _ h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
